-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x512 : Shape := ⟨3, ![4096, 32, 512]⟩
abbrev S256x512 : Shape := ⟨2, ![256, 512]⟩
abbrev S256x256 : Shape := ⟨2, ![256, 256]⟩
abbrev S256 : Shape := ⟨1, ![256]⟩
abbrev S_ : Shape := ⟨0, ![]⟩

class Facts : Prop where
  bcast_S_S4096x32x512 : S_.BroadcastsInDim S4096x32x512 (![] : Fin 0 → Fin S4096x32x512.rank)
  reducesTo_S4096x32x512_S_d0_1_2 : S4096x32x512.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256x512 .f32) (main_arg12 : FVec F S256x256 .f32) (main_arg13 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x512 .f32 := Host.absf main_arg11
  let main_cst_20 : FVec F S_ .f32 := constant S_ .f32 0x7F800000#32
  let main_v55 : FVec F S256x512 .f32 := broadcastInDim S256x512 ![] bcast_S_S256x512 main_cst_20
  let main_v56 : IVec S256x512 1 := cmpf .olt main_v54 main_v55
  let main_c_21 : IVec S_ 1 := constantI S_ 1 1#1
  let main_v57 : IVec S_ 1 := (fun x v => Host.reduce IntOp.andi x v reducesTo_S256x512_S_d0_1 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S256 .f32) (main_arg8 : FVec F S256x512 .f32) (main_arg9 : FVec F S256x256 .f32) (main_arg10 : FVec F S256 .f32) (main_arg11 : FVec F S256x512 .f32) (main_arg12 : FVec F S256x256 .f32) (main_arg13 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x512 .f32 := Host.absf main_arg8
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_v48 main_v49 main_v50

def fn_part1 {F : FTy → Type} [FloatOps F] (main_arg4 : FVec F S256 .f32) (main_arg5 : FVec F S256x512 .f32) (main_arg6 : FVec F S256x256 .f32) (main_arg7 : FVec F S256 .f32) (main_arg8 : FVec F S256x512 .f32) (main_arg9 : FVec F S256x256 .f32) (main_arg10 : FVec F S256 .f32) (main_arg11 : FVec F S256x512 .f32) (main_arg12 : FVec F S256x256 .f32) (main_arg13 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x32x512 .f32) (main_arg1 : FVec F S4096x32x512 .f32) (main_arg2 : FVec F S256x512 .f32) (main_arg3 : FVec F S256x256 .f32) (main_arg4 : FVec F S256 .f32) (main_arg5 : FVec F S256x512 .f32) (main_arg6 : FVec F S256x256 .f32) (main_arg7 : FVec F S256 .f32) (main_arg8 : FVec F S256x512 .f32) (main_arg9 : FVec F S256x256 .f32) (main_arg10 : FVec F S256 .f32) (main_arg11 : FVec F S256x512 .f32) (main_arg12 : FVec F S256x256 .f32) (main_arg13 : FVec F S256 .f32) : IVec S_ 1 :=
  let main_v0 : FVec F S4096x32x512 .f32 := Host.absf main_arg0
  let main_cst : FVec F S_ .f32 := constant S_ .f32 0x7F800000#32
  let main_v1 : FVec F S4096x32x512 .f32 := broadcastInDim S4096x32x512 ![] bcast_S_S4096x32x512 main_cst
  let main_v2 : IVec S4096x32x512 1 := cmpf .olt main_v0 main_v1
  let main_c : IVec S_ 1 := constantI S_ 1 1#1
  let main_v3 : IVec S_ 1 := (fun x v => Host.reduce IntOp.andi x v reducesTo_S4096x32x512_S_d0_1_2 h_S_) main_v2 main_c
  let main_v4 : FVec F S4096x32x512 .f32 := Host.absf main_arg1
  let main_cst_0 : FVec F S_ .f32 := constant S_ .f32 0x7F800000#32
  let main_v5 : FVec F S4096x32x512 .f32 := broadcastInDim S4096x32x512 ![] bcast_S_S4096x32x512 main_cst_0
  let main_v6 : IVec S4096x32x512 1 := cmpf .olt main_v4 main_v5
  let main_c_1 : IVec S_ 1 := constantI S_ 1 1#1
  let main_v7 : IVec S_ 1 := (fun x v => Host.reduce IntOp.andi x v reducesTo_S4096x32x512_S_d0_1_2 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x32x512 : Shape := ⟨3, ![4096, 32, 512]⟩
abbrev S256x512 : Shape := ⟨2, ![256, 512]⟩
abbrev S256x256 : Shape := ⟨2, ![256, 256]⟩
abbrev S256 : Shape := ⟨1, ![256]⟩
abbrev S4096x512 : Shape := ⟨2, ![4096, 512]⟩
abbrev S4096x256 : Shape := ⟨2, ![4096, 256]⟩
abbrev S64x32x512 : Shape := ⟨3, ![64, 32, 512]⟩
abbrev S64x512 : Shape := ⟨2, ![64, 512]⟩
abbrev S64x256 : Shape := ⟨2, ![64, 256]⟩
abbrev S64x1x512 : Shape := ⟨3, ![64, 1, 512]⟩
abbrev S64x32x256 : Shape := ⟨3, ![64, 32, 256]⟩
abbrev S512x256 : Shape := ⟨2, ![512, 256]⟩
abbrev S1x256 : Shape := ⟨2, ![1, 256]⟩
abbrev S2048x512 : Shape := ⟨2, ![2048, 512]⟩
abbrev S2048x256 : Shape := ⟨2, ![2048, 256]⟩
abbrev S1x1x256 : Shape := ⟨3, ![1, 1, 256]⟩

abbrev nBuf : Space → Nat
  | .hbm => 16
  | .vmem => 20
  | .smem => 0
  | _ => 0

abbrev bufTy : (tb : Table) → Fin (tcTables nBuf tb) → BufTy
  | .hbm, ⟨0, _⟩ => ⟨S4096x32x512, .f32⟩
  | .hbm, ⟨1, _⟩ => ⟨S4096x32x512, .f32⟩
  | .hbm, ⟨2, _⟩ => ⟨S256x512, .f32⟩
  | .hbm, ⟨3, _⟩ => ⟨S256x256, .f32⟩
  | .hbm, ⟨4, _⟩ => ⟨S256, .f32⟩
  | .hbm, ⟨5, _⟩ => ⟨S256x512, .f32⟩
  | .hbm, ⟨6, _⟩ => ⟨S256x256, .f32⟩
  | .hbm, ⟨7, _⟩ => ⟨S256, .f32⟩
  | .hbm, ⟨8, _⟩ => ⟨S256x512, .f32⟩
  | .hbm, ⟨9, _⟩ => ⟨S256x256, .f32⟩
  | .hbm, ⟨10, _⟩ => ⟨S256, .f32⟩
  | .hbm, ⟨11, _⟩ => ⟨S256x512, .f32⟩
  | .hbm, ⟨12, _⟩ => ⟨S256x256, .f32⟩
  | .hbm, ⟨13, _⟩ => ⟨S256, .f32⟩
  | .hbm, ⟨14, _⟩ => ⟨S4096x512, .f32⟩
  | .hbm, ⟨15, _⟩ => ⟨S4096x256, .f32⟩
  | .local _ .vmem, ⟨0, _⟩ => ⟨S64x32x512, .f32⟩
  | .local _ .vmem, ⟨1, _⟩ => ⟨S64x32x512, .f32⟩
  | .local _ .vmem, ⟨2, _⟩ => ⟨S64x32x512, .f32⟩
  | .local _ .vmem, ⟨3, _⟩ => ⟨S64x32x512, .f32⟩
  | .local _ .vmem, ⟨4, _⟩ => ⟨S256x512, .f32⟩
  | .local _ .vmem, ⟨5, _⟩ => ⟨S256x256, .f32⟩
  | .local _ .vmem, ⟨6, _⟩ => ⟨S256, .f32⟩
  | .local _ .vmem, ⟨7, _⟩ => ⟨S256x512, .f32⟩
  | .local _ .vmem, ⟨8, _⟩ => ⟨S256x256, .f32⟩
  | .local _ .vmem, ⟨9, _⟩ => ⟨S256, .f32⟩
  | .local _ .vmem, ⟨10, _⟩ => ⟨S256x512, .f32⟩
  | .local _ .vmem, ⟨11, _⟩ => ⟨S256x256, .f32⟩
  | .local _ .vmem, ⟨12, _⟩ => ⟨S256, .f32⟩
  | .local _ .vmem, ⟨13, _⟩ => ⟨S256x512, .f32⟩
  | .local _ .vmem, ⟨14, _⟩ => ⟨S256x256, .f32⟩
  | .local _ .vmem, ⟨15, _⟩ => ⟨S256, .f32⟩
  | .local _ .vmem, ⟨16, _⟩ => ⟨S64x512, .f32⟩
  | .local _ .vmem, ⟨17, _⟩ => ⟨S64x512, .f32⟩
  | .local _ .vmem, ⟨18, _⟩ => ⟨S64x256, .f32⟩
  | .local _ .vmem, ⟨19, _⟩ => ⟨S64x256, .f32⟩
  | _, _ => ⟨S4096x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S64x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  inb_S64x32x512_S64x32x512_0_0_0 : ∀ a, (![0, 0, 0] : Fin 3 → Nat) a + S64x32x512.size a ≤ S64x32x512.size a
  h_S64x32x512 : 0 < S64x32x512.numel
  slices_S64x32x512_o0_0_0_S64x1x512 : S64x32x512.Slices ![0, 0, 0] S64x1x512
  shapeCasts_S64x1x512_S64x512 : S64x1x512.ShapeCasts S64x512
  slices_S64x32x512_o0_0_0_S64x32x256 : S64x32x512.Slices ![0, 0, 0] S64x32x256
  slices_S64x32x512_o0_0_256_S64x32x256 : S64x32x512.Slices ![0, 0, 256] S64x32x256
  reduces_S64x32x256_S64x256 : S64x32x256.Reduces [1] S64x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  transposes_S256x512_p1_0_S512x256 : S256x512.Transposes [1, 0] S512x256
  transposes_S256x256_p1_0_S256x256 : S256x256.Transposes [1, 0] S256x256
  shapeCasts_S256_S1x256 : S256.ShapeCasts S1x256
  broadcasts_S1x256_S64x256 : S1x256.Broadcasts S64x256
  shapeCasts_S64x32x512_S2048x512 : S64x32x512.ShapeCasts S2048x512
  shapeCasts_S64x32x256_S2048x256 : S64x32x256.ShapeCasts S2048x256
  shapeCasts_S2048x256_S64x32x256 : S2048x256.ShapeCasts S64x32x256
  shapeCasts_S256_S1x1x256 : S256.ShapeCasts S1x1x256
  broadcasts_S1x1x256_S64x32x256 : S1x1x256.Broadcasts S64x32x256
  concatenates_S64x256_S64x256_S64x512_d1 : Shape.Concatenates [S64x256, S64x256] S64x512 1
  inb_S64x512_S64x512_0_0 : ∀ a, (![0, 0] : Fin 2 → Nat) a + S64x512.size a ≤ S64x512.size a
  h_S64x512 : 0 < S64x512.numel
  inb_S64x256_S64x256_0_0 : ∀ a, (![0, 0] : Fin 2 → Nat) a + S64x256.size a ≤ S64x256.size a
  h_S64x256 : 0 < S64x256.numel
  dot_S64x512_S512x256_S64x256_1_0_0_1_n_n_wf : DotDims.WF S64x512 S512x256 S64x256 [1] [0] [0] [1] [] []
  dot_S64x256_S256x256_S64x256_1_0_0_1_n_n_wf : DotDims.WF S64x256 S256x256 S64x256 [1] [0] [0] [1] [] []
  dot_S2048x512_S512x256_S2048x256_1_0_0_1_n_n_wf : DotDims.WF S2048x512 S512x256 S2048x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32x512.size a ≤ S4096x32x512.size a
  hwx0_0 : ∀ i : grid0.Coords, EltTy.bits .f32 = 32 ∨ (Rect.block (s := S4096x32x512) S64x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32x512.size a ≤ S4096x32x512.size a
  hwx0_1 : ∀ i : grid0.Coords, EltTy.bits .f32 = 32 ∨ (Rect.block (s := S4096x32x512) S64x32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .f32 = 32 ∨ (Rect.block (s := S256x512) S256x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S256x512.size a
  hwx0_8 : ∀ i : grid0.Coords, EltTy.bits .f32 = 32 ∨ (Rect.block (s := S256x512) S256x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x512.size a ≤ S256x512.size a
  hwx0_11 : ∀ i : grid0.Coords, EltTy.bits .f32 = 32 ∨ (Rect.block (s := S256x512) S256x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .f32 = 32 ∨ (Rect.block (s := S256x256) S256x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S64x512.size a ≤ S4096x512.size a
  hwx0_14 : ∀ i : grid0.Coords, EltTy.bits .f32 = 32 ∨ (Rect.block (s := S4096x512) S64x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S64x256.size a ≤ S4096x256.size a
  hwx0_15 : ∀ i : grid0.Coords, EltTy.bits .f32 = 32 ∨ (Rect.block (s := S4096x256) S64x256.size (cc0_transform_15 i) (hinb0_15 i)).WholeWords (EltTy.packing .f32)

variable [Facts₀]

def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S64x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v0_0) S64x512.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v0_1) S64x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S4096x32x512 : Shape := ⟨3, ![4096, 32, 512]⟩
abbrev S256x512 : Shape := ⟨2, ![256, 512]⟩
abbrev S256x256 : Shape := ⟨2, ![256, 256]⟩
abbrev S256 : Shape := ⟨1, ![256]⟩
abbrev S4096x1x512 : Shape := ⟨3, ![4096, 1, 512]⟩
abbrev S4096x512 : Shape := ⟨2, ![4096, 512]⟩
abbrev S4096x32x256 : Shape := ⟨3, ![4096, 32, 256]⟩
abbrev S_ : Shape := ⟨0, ![]⟩
abbrev S4096x256 : Shape := ⟨2, ![4096, 256]⟩
abbrev S512x256 : Shape := ⟨2, ![512, 256]⟩
abbrev S1x256 : Shape := ⟨2, ![1, 256]⟩
abbrev S1x1x256 : Shape := ⟨3, ![1, 1, 256]⟩

abbrev nBuf : Space → Nat
  | .hbm => 83
  | .vmem => 0
  | .smem => 0
  | _ => 0

abbrev bufTy : (tb : Table) → Fin (tcTables nBuf tb) → BufTy
  | .hbm, ⟨0, _⟩ => ⟨S4096x32x512, .f32⟩
  | .hbm, ⟨1, _⟩ => ⟨S4096x32x512, .f32⟩
  | .hbm, ⟨2, _⟩ => ⟨S256x512, .f32⟩
  | .hbm, ⟨3, _⟩ => ⟨S256x256, .f32⟩
  | .hbm, ⟨4, _⟩ => ⟨S256, .f32⟩
  | .hbm, ⟨5, _⟩ => ⟨S256x512, .f32⟩
  | .hbm, ⟨6, _⟩ => ⟨S256x256, .f32⟩
  | .hbm, ⟨7, _⟩ => ⟨S256, .f32⟩
  | .hbm, ⟨8, _⟩ => ⟨S256x512, .f32⟩
  | .hbm, ⟨9, _⟩ => ⟨S256x256, .f32⟩
  | .hbm, ⟨10, _⟩ => ⟨S256, .f32⟩
  | .hbm, ⟨11, _⟩ => ⟨S256x512, .f32⟩
  | .hbm, ⟨12, _⟩ => ⟨S256x256, .f32⟩
  | .hbm, ⟨13, _⟩ => ⟨S256, .f32⟩
  | .hbm, ⟨14, _⟩ => ⟨S4096x1x512, .f32⟩
  | .hbm, ⟨15, _⟩ => ⟨S4096x512, .f32⟩
  | .hbm, ⟨16, _⟩ => ⟨S4096x32x256, .f32⟩
  | .hbm, ⟨17, _⟩ => ⟨S4096x32x256, .f32⟩
  | .hbm, ⟨18, _⟩ => ⟨S_, .f32⟩
  | .hbm, ⟨19, _⟩ => ⟨S4096x256, .f32⟩
  | .hbm, ⟨20, _⟩ => ⟨S512x256, .f32⟩
  | .hbm, ⟨21, _⟩ => ⟨S4096x256, .f32⟩
  | .hbm, ⟨22, _⟩ => ⟨S256x256, .f32⟩
  | .hbm, ⟨23, _⟩ => ⟨S4096x256, .f32⟩
  | .hbm, ⟨24, _⟩ => ⟨S4096x256, .f32⟩
  | .hbm, ⟨25, _⟩ => ⟨S1x256, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096x256, .f32⟩
  | .hbm, ⟨32, _⟩ => ⟨S4096x256, .f32⟩
  | .hbm, ⟨33, _⟩ => ⟨S_, .f32⟩
  | .hbm, ⟨34, _⟩ => ⟨S4096x256, .f32⟩
  | .hbm, ⟨35, _⟩ => ⟨S4096x256, .f32⟩
  | .hbm, ⟨36, _⟩ => ⟨S4096x32x256, .f32⟩
  | .hbm, ⟨37, _⟩ => ⟨S4096x32x256, .f32⟩
  | .hbm, ⟨38, _⟩ => ⟨S4096x32x256, .f32⟩
  | .hbm, ⟨39, _⟩ => ⟨S1x1x256, .f32⟩
  | .hbm, ⟨40, _⟩ => ⟨S4096x32x256, .f32⟩
  | .hbm, ⟨41, _⟩ => ⟨S4096x32x256, .f32⟩
  | .hbm, ⟨42, _⟩ => ⟨S4096x32x256, .f32⟩
  | .hbm, ⟨43, _⟩ => ⟨S4096x32x256, .f32⟩
  | .hbm, ⟨44, _⟩ => ⟨S_, .f32⟩
  | .hbm, ⟨45, _⟩ => ⟨S4096x32x256, .f32⟩
  | .hbm, ⟨46, _⟩ => ⟨S4096x32x256, .f32⟩
  | .hbm, ⟨47, _⟩ => ⟨S_, .f32⟩
  | .hbm, ⟨48, _⟩ => ⟨S4096x32x256, .f32⟩
  | .hbm, ⟨49, _⟩ => ⟨S4096x32x256, .f32⟩
  | .hbm, ⟨50, _⟩ => ⟨S512x256, .f32⟩
  | .hbm, ⟨51, _⟩ => ⟨S4096x256, .f32⟩
  | .hbm, ⟨52, _⟩ => ⟨S256x256, .f32⟩
  | .hbm, ⟨53, _⟩ => ⟨S4096x256, .f32⟩
  | .hbm, ⟨54, _⟩ => ⟨S4096x256, .f32⟩
  | .hbm, ⟨55, _⟩ => ⟨S1x256, .f32⟩
  | .hbm, ⟨56, _⟩ => ⟨S4096x256, .f32⟩
  | .hbm, ⟨57, _⟩ => ⟨S4096x256, .f32⟩
  | .hbm, ⟨58, _⟩ => ⟨S4096x256, .f32⟩
  | .hbm, ⟨59, _⟩ => ⟨S4096x256, .f32⟩
  | .hbm, ⟨60, _⟩ => ⟨S_, .f32⟩
  | .hbm, ⟨61, _⟩ => ⟨S4096x256, .f32⟩
  | .hbm, ⟨62, _⟩ => ⟨S4096x256, .f32⟩
  | .hbm, ⟨63, _⟩ => ⟨S_, .f32⟩
  | .hbm, ⟨64, _⟩ => ⟨S4096x256, .f32⟩
  | .hbm, ⟨65, _⟩ => ⟨S4096x256, .f32⟩
  | .hbm, ⟨66, _⟩ => ⟨S512x256, .f32⟩
  | .hbm, ⟨67, _⟩ => ⟨S4096x256, .f32⟩
  | .hbm, ⟨68, _⟩ => ⟨S256x256, .f32⟩
  | .hbm, ⟨69, _⟩ => ⟨S4096x256, .f32⟩
  | .hbm, ⟨70, _⟩ => ⟨S4096x256, .f32⟩
  | .hbm, ⟨71, _⟩ => ⟨S1x256, .f32⟩
  | .hbm, ⟨72, _⟩ => ⟨S4096x256, .f32⟩
  | .hbm, ⟨73, _⟩ => ⟨S4096x256, .f32⟩
  | .hbm, ⟨74, _⟩ => ⟨S4096x256, .f32⟩
  | .hbm, ⟨75, _⟩ => ⟨S4096x256, .f32⟩
  | .hbm, ⟨76, _⟩ => ⟨S4096x32x256, .f32⟩
  | .hbm, ⟨77, _⟩ => ⟨S_, .f32⟩
  | .hbm, ⟨78, _⟩ => ⟨S4096x256, .f32⟩
  | .hbm, ⟨79, _⟩ => ⟨S4096x256, .f32⟩
  | .hbm, ⟨80, _⟩ => ⟨S4096x256, .f32⟩
  | .hbm, ⟨81, _⟩ => ⟨S4096x256, .f32⟩
  | .hbm, ⟨82, _⟩ => ⟨S4096x512, .f32⟩
  | _, _ => ⟨S4096x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_6 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]

class Facts₀ : Prop where
  slices_S4096x32x512_S4096x1x512_0_0_0 : S4096x32x512.Slices ![0, 0, 0] S4096x1x512
  shapeCasts_S4096x1x512_S4096x512 : S4096x1x512.ShapeCasts S4096x512
  slices_S4096x32x512_S4096x32x256_0_0_0 : S4096x32x512.Slices ![0, 0, 0] S4096x32x256
  slices_S4096x32x512_S4096x32x256_0_0_256 : S4096x32x512.Slices ![0, 0, 256] S4096x32x256
  reducesTo_S4096x32x256_S4096x256_d1 : S4096x32x256.ReducesTo [1] S4096x256
  h_S_ : 0 < S_.numel
  transposes_S256x512_S512x256_1_0 : S256x512.Transposes [1, 0] S512x256
  transposes_S256x256_S256x256_1_0 : S256x256.Transposes [1, 0] S256x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S256_S1x1x256_2 : S256.BroadcastsInDim S1x1x256 (![2] : Fin 1 → Fin S1x1x256.rank)
  bcast_S1x1x256_S4096x32x256_0_1_2 : S1x1x256.BroadcastsInDim S4096x32x256 (![0, 1, 2] : Fin 3 → Fin S4096x32x256.rank)
  bcast_S_S4096x32x256 : S_.BroadcastsInDim S4096x32x256 (![] : Fin 0 → Fin S4096x32x256.rank)
  concatenates_S4096x256_S4096x256_S4096x512_d1 : Shape.Concatenates [S4096x256, S4096x256] S4096x512 1
  dot_S4096x512_S512x256_S4096x256_1_0_0_1_n_n_wf : DotDims.WF S4096x512 S512x256 S4096x256 [1] [0] [0] [1] [] []
  dot_S4096x256_S256x256_S4096x256_1_0_0_1_n_n_wf : DotDims.WF S4096x256 S256x256 S4096x256 [1] [0] [0] [1] [] []
  dot_S4096x32x512_S256x512_S4096x32x256_2_1_01_0_n_n_wf : DotDims.WF S4096x32x512 S256x512 S4096x32x256 [2] [1] [0, 1] [0] [] []
  dot_S4096x32x256_S256x256_S4096x32x256_2_1_01_0_n_n_wf : DotDims.WF S4096x32x256 S256x256 S4096x32x256 [2] [1] [0, 1] [0] [] []

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x32x512_S256x512_S4096x32x256_2_1_01_0_n_n : DotDims S4096x32x512 S256x512 S4096x32x256 where
  lhsContracting := [2]
  rhsContracting := [1]
  lhsNonContracting := [0, 1]
  rhsNonContracting := [0]
  lhsBatch := []
  rhsBatch := []
  wf := dot_S4096x32x512_S256x512_S4096x32x256_2_1_01_0_n_n_wf
def dot_S4096x32x256_S256x256_S4096x32x256_2_1_01_0_n_n : DotDims S4096x32x256 S256x256 S4096x32x256 where
  lhsContracting := [2]
  rhsContracting := [1]
  lhsNonContracting := [0, 1]
  rhsNonContracting := [0]
  lhsBatch := []
  rhsBatch := []
  wf := dot_S4096x32x256_S256x256_S4096x32x256_2_1_01_0_n_n_wf

class Facts : Prop extends Facts₀ where

variable [Facts]
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Cell.lean ====
/-
  The tree cell with children-sum aggregation, on ONE batch row.

  A row of the node tensor is 32 child slots of 512 features, `rz n s`; a row of the children tensor is 32 children
  of 512 features, `rc n s`, whose first 256 features are the child's hidden state h and whose last 256 its memory c.
  With  h~ = Σ_n h_n  (the children's summed hidden state) and, for a gate g with weights W (256 × 512), U (256 × 256)
  and bias b,
      lin_g(x, h)(c) = Σ_s x(s)·W(c, s) + Σ_k h(k)·U(c, k) + b(c),
  the cell computes
      i = σ(lin_i(rz 0, h~)),   o = σ(lin_o(rz 0, h~)),   u = tanh(lin_u(rz 0, h~)),
      f_n = σ(lin_f(rz n, h_n))                               (one forget gate per child),
      cell = i·u + Σ_n f_n·c_n,       hidden = o·tanh(cell),
  and the output row is hidden followed by cell. Every sum is a finite sum of extended reals; σ is the logistic
  function  1 / (1 + e^(-x))  with its limits 0 and 1 at the infinities.
-/
import Idealize.ShloMosaic.PureOps.Ideal
import Idealize.ShloMosaic.PureOps.IdealRules
import Idealize.ShloMosaic.Lib.ValueIdx

noncomputable section

namespace Cert.Cell

open Idealize.ShloMosaic Idealize.ShloMosaic.ValueIdx

/-- Gate weights on the 512 input features, on the 256 hidden features, and the bias. -/
abbrev SW : Shape := ⟨2, ![256, 512]⟩
abbrev SU : Shape := ⟨2, ![256, 256]⟩
abbrev SB : Shape := ⟨1, ![256]⟩

/-- One batch row of a [batch, 32, 512] tensor. -/
abbrev Row : Type := Fin 32 → Fin 512 → EReal

/-- Feature k of the hidden half (the first 256 features). -/
def lo (k : Fin 256) : Fin 512 := ⟨k.val, by have := k.isLt; omega⟩
/-- Feature k of the memory half (the last 256 features). -/
def hi (k : Fin 256) : Fin 512 := ⟨256 + k.val, by have := k.isLt; omega⟩

theorem lo_val (k : Fin 256) : (lo k).val = k.val := rfl
theorem hi_val (k : Fin 256) : (hi k).val = 256 + k.val := rfl

/-- The children's summed hidden state. -/
def childSum (rc : Row) (k : Fin 256) : EReal := ∑ n : Fin 32, rc n (lo k)

/-- A gate's pre-activation from an input vector and a hidden vector. -/
def lin (x : Fin 512 → EReal) (h : Fin 256 → EReal) (W : FVec Ideal SW .f32) (U : FVec Ideal SU .f32) (b : FVec Ideal SB .f32)
    (c : Fin 256) : EReal :=
  (∑ s : Fin 512, x s * W (ix2 c s)) + (∑ k : Fin 256, h k * U (ix2 c k)) + b (ix1 c)

/-- The new memory: input gate times candidate, plus each child's memory through its own forget gate. -/
def cellState (rz rc : Row) (Wi : FVec Ideal SW .f32) (Ui : FVec Ideal SU .f32) (bi : FVec Ideal SB .f32)
    (Wf : FVec Ideal SW .f32) (Uf : FVec Ideal SU .f32) (bf : FVec Ideal SB .f32)
    (Wu : FVec Ideal SW .f32) (Uu : FVec Ideal SU .f32) (bu : FVec Ideal SB .f32) (c : Fin 256) : EReal :=
  Ideal.logistic (lin (rz 0) (childSum rc) Wi Ui bi c) * Ideal.tanh (lin (rz 0) (childSum rc) Wu Uu bu c)
    + ∑ n : Fin 32, Ideal.logistic (lin (rz n) (fun k => rc n (lo k)) Wf Uf bf c) * rc n (hi c)

/-- The new hidden state: output gate times tanh of the new memory. -/
def hidden (rz rc : Row) (Wi : FVec Ideal SW .f32) (Ui : FVec Ideal SU .f32) (bi : FVec Ideal SB .f32)
    (Wf : FVec Ideal SW .f32) (Uf : FVec Ideal SU .f32) (bf : FVec Ideal SB .f32)
    (Wo : FVec Ideal SW .f32) (Uo : FVec Ideal SU .f32) (bo : FVec Ideal SB .f32)
    (Wu : FVec Ideal SW .f32) (Uu : FVec Ideal SU .f32) (bu : FVec Ideal SB .f32) (c : Fin 256) : EReal :=
  Ideal.logistic (lin (rz 0) (childSum rc) Wo Uo bo c) * Ideal.tanh (cellState rz rc Wi Ui bi Wf Uf bf Wu Uu bu c)

/-- The output row: the hidden state on features 0 … 255, the memory on features 256 … 511. -/
def outRow (rz rc : Row) (Wi : FVec Ideal SW .f32) (Ui : FVec Ideal SU .f32) (bi : FVec Ideal SB .f32)
    (Wf : FVec Ideal SW .f32) (Uf : FVec Ideal SU .f32) (bf : FVec Ideal SB .f32)
    (Wo : FVec Ideal SW .f32) (Uo : FVec Ideal SU .f32) (bo : FVec Ideal SB .f32)
    (Wu : FVec Ideal SW .f32) (Uu : FVec Ideal SU .f32) (bu : FVec Ideal SB .f32) (q : Fin 512) : EReal :=
  if h : q.val < 256 then hidden rz rc Wi Ui bi Wf Uf bf Wo Uo bo Wu Uu bu ⟨q.val, h⟩
  else cellState rz rc Wi Ui bi Wf Uf bf Wu Uu bu ⟨q.val - 256, by have := q.isLt; omega⟩

theorem outRow_lo (rz rc : Row) (Wi : FVec Ideal SW .f32) (Ui : FVec Ideal SU .f32) (bi : FVec Ideal SB .f32)
    (Wf : FVec Ideal SW .f32) (Uf : FVec Ideal SU .f32) (bf : FVec Ideal SB .f32)
    (Wo : FVec Ideal SW .f32) (Uo : FVec Ideal SU .f32) (bo : FVec Ideal SB .f32)
    (Wu : FVec Ideal SW .f32) (Uu : FVec Ideal SU .f32) (bu : FVec Ideal SB .f32) (q : Fin 512) (c : Fin 256) (h : q.val = c.val) :
    outRow rz rc Wi Ui bi Wf Uf bf Wo Uo bo Wu Uu bu q = hidden rz rc Wi Ui bi Wf Uf bf Wo Uo bo Wu Uu bu c := by
  unfold outRow
  rw [dif_pos (by have := c.isLt; omega)]
  exact congrArg _ (Fin.ext h)

theorem outRow_hi (rz rc : Row) (Wi : FVec Ideal SW .f32) (Ui : FVec Ideal SU .f32) (bi : FVec Ideal SB .f32)
    (Wf : FVec Ideal SW .f32) (Uf : FVec Ideal SU .f32) (bf : FVec Ideal SB .f32)
    (Wo : FVec Ideal SW .f32) (Uo : FVec Ideal SU .f32) (bo : FVec Ideal SB .f32)
    (Wu : FVec Ideal SW .f32) (Uu : FVec Ideal SU .f32) (bu : FVec Ideal SB .f32) (q : Fin 512) (c : Fin 256) (h : q.val = 256 + c.val) :
    outRow rz rc Wi Ui bi Wf Uf bf Wo Uo bo Wu Uu bu q = cellState rz rc Wi Ui bi Wf Uf bf Wu Uu bu c := by
  unfold outRow
  rw [dif_neg (by omega)]
  exact congrArg _ (Fin.ext (by show q.val - 256 = c.val; omega))

/-- The f32 pattern of 1.0 denotes the real 1. -/
theorem ofBits_one : Ideal.ofBits .f32 0x3F800000#32 = 1 := IdealRules.sign_bit.ideal_onePat .f32

/-- The logistic function as the host spells it: 1.0 / (1.0 + exp(-x)). -/
theorem logistic_spelled (x : EReal) :
    Ideal.div (Ideal.ofBits .f32 0x3F800000#32) (Ideal.ofBits .f32 0x3F800000#32 + Ideal.exp (-x)) = Ideal.logistic x := by
  rw [ofBits_one]; rfl

end Cert.Cell

end
-- ==== Proof.KernelBlock.lean ====
/-
  The kernel body's values at an index of a block, as the tree cell of one batch row.

  The body works on a block of 64 batch rows. Its small values read the block at an index: the hidden and memory
  halves of the children are slices along the feature axis, the node's own features are child slot 0, and the
  summed hidden state is a sum over the 32 children. A gate is two matrix products into zero plus a bias row; at
  the extended reals a change of float format is the identity and a product into zero is the plain sum over the
  contracted axis, so a gate at (p, c) is  Σ_s x(p, s)·W(c, s) + Σ_k h(p, k)·U(c, k) + b(c).
-/
import proofs.«129001_j4526895530471_1_alg».proof.Proof.Gen.KernelIdeal.Skeleton
import proofs.«129001_j4526895530471_1_alg».proof.Proof.LibPlainDot
import proofs.«129001_j4526895530471_1_alg».proof.Proof.Cell
import Idealize.ShloMosaic.PureOps.Ideal.Laws
import Idealize.ShloMosaic.Lib.ValueIdx
import Idealize.ShloMosaic.Lib.Pipeline.Value

noncomputable section

namespace Cert.KernelBlock

open Idealize.ShloMosaic Idealize.ShloMosaic.ValueIdx Cert.KernelIdeal Cert.KernelIdeal.Gen Cert.Cell

/-- Row p of a block of 64 batch rows. -/
abbrev brow (v : Vec Ideal S64x32x512 .f32) (p : Fin 64) : Cell.Row := fun n s => v (ix3 p n s)

theorem logistic_apply {s : Shape} {φ : FTy} (x : FVec Ideal s φ) (i : s.Idx) : logistic x i = Ideal.logistic (x i) := rfl
theorem tanh_apply {s : Shape} {φ : FTy} (x : FVec Ideal s φ) (i : s.Idx) : tanh x i = Ideal.tanh (x i) := rfl

/-- The children's hidden half at (p, n, k) is the children block at feature k. -/
theorem pay1_apply (v1 : Vec Ideal S64x32x512 .f32) (p : Fin 64) (n : Fin 32) (k : Fin 256) :
    k0_pay1 v1 (ix3 p n k) = v1 (ix3 p n (lo k)) := by
  unfold k0_pay1
  exact extractStridedSlice_apply _ _ _ _ _ (fun a => by
    match a with
    | ⟨0, _⟩ => exact (Nat.zero_add _).symm
    | ⟨1, _⟩ => exact (Nat.zero_add _).symm
    | ⟨2, _⟩ => exact (Nat.zero_add _).symm)

/-- The children's memory half at (p, n, k) is the children block at feature 256 + k. -/
theorem pay2_apply (v1 : Vec Ideal S64x32x512 .f32) (p : Fin 64) (n : Fin 32) (k : Fin 256) :
    k0_pay2 v1 (ix3 p n k) = v1 (ix3 p n (hi k)) := by
  unfold k0_pay2
  exact extractStridedSlice_apply _ _ _ _ _ (fun a => by
    match a with
    | ⟨0, _⟩ => exact (Nat.zero_add _).symm
    | ⟨1, _⟩ => exact (Nat.zero_add _).symm
    | ⟨2, _⟩ => rfl)

/-- The summed hidden state at (p, k): the sum over the 32 children of their hidden feature k. -/
theorem pay3_apply (v1 : Vec Ideal S64x32x512 .f32) (p : Fin 64) (k : Fin 256) :
    k0_pay3 v1 (ix2 p k) = childSum (brow v1 p) k := by
  unfold k0_pay3 childSum
  refine (Ideal.multiReduction_add_single _ _ _ _ _ _).trans ?_
  exact Finset.sum_congr rfl fun n _ =>
    (congrArg (k0_pay1 v1) (funext fun a => Fin.ext (by
      match a with
      | ⟨0, _⟩ => rfl
      | ⟨1, _⟩ => rfl
      | ⟨2, _⟩ => rfl))).trans (pay1_apply v1 p n k)

/-- The node's own features at (p, s): child slot 0 of the node block. -/
theorem pay4_apply (v0 : Vec Ideal S64x32x512 .f32) (p : Fin 64) (s : Fin 512) :
    k0_pay4 v0 (ix2 p s) = v0 (ix3 p 0 s) := by
  unfold k0_pay4
  refine (truncf_apply (φ := .f32) (ψ := .bf16) _ _ _).trans ?_
  refine (shapeCast_apply _ _ (ix2 p s) (ix3 p (0 : Fin 1) s) ?_).trans ?_
  · rw [Shape.rowMajor_val_three, Shape.rowMajor_val_two]
    show (p.val * 1 + 0) * 512 + s.val = p.val * 512 + s.val
    omega
  · exact extractStridedSlice_apply _ _ _ _ _ (fun a => by
      match a with
      | ⟨0, _⟩ => exact (Nat.zero_add _).symm
      | ⟨1, _⟩ => rfl
      | ⟨2, _⟩ => exact (Nat.zero_add _).symm)

/-- The summed hidden state, recast to the product's input format, is itself. -/
theorem pay5_apply (v1 : Vec Ideal S64x32x512 .f32) (p : Fin 64) (k : Fin 256) :
    k0_pay5 v1 (ix2 p k) = childSum (brow v1 p) k := by
  unfold k0_pay5
  exact (truncf_apply (φ := .f32) (ψ := .bf16) _ _ _).trans (pay3_apply v1 p k)

/-- A gate's pre-activation at (p, c), for any number of rows: the two products into zero are sums over the 512
    input features and the 256 hidden features against ROW c of the weights (the kernel transposes them first), and
    the bias row adds b(c). -/
theorem gate_apply {R : Nat}
    (d1 : DotDims ⟨2, ![R, 512]⟩ ⟨2, ![512, 256]⟩ ⟨2, ![R, 256]⟩) (hd1 : d1 = DotDims.plain R 512 256)
    (d2 : DotDims ⟨2, ![R, 256]⟩ ⟨2, ![256, 256]⟩ ⟨2, ![R, 256]⟩) (hd2 : d2 = DotDims.plain R 256 256)
    (x : FVec Ideal ⟨2, ![R, 512]⟩ .bf16) (h : FVec Ideal ⟨2, ![R, 256]⟩ .bf16)
    (W : FVec Ideal SW .f32) (U : FVec Ideal SU .f32) (hlt : FTy.bits .bf16 < FTy.bits .f32)
    (hW : SW.Transposes [1, 0] ⟨2, ![512, 256]⟩) (hU : SU.Transposes [1, 0] ⟨2, ![256, 256]⟩)
    (p : Fin R) (c : Fin 256) :
    addf (matmul d1 none x (transpose ⟨2, ![512, 256]⟩ [1, 0] (truncf .bf16 W hlt) hW) (constant ⟨2, ![R, 256]⟩ .f32 0x00000000#32))
         (matmul d2 none h (transpose ⟨2, ![256, 256]⟩ [1, 0] (truncf .bf16 U hlt) hU) (constant ⟨2, ![R, 256]⟩ .f32 0x00000000#32)) (ix2 p c)
      = (∑ s : Fin 512, x (ix2 p s) * W (ix2 c s)) + (∑ k : Fin 256, h (ix2 p k) * U (ix2 c k)) := by
  subst hd1 hd2
  refine congrArg₂ (· + ·) ?_ ?_
  · refine (LibPlainDot.matmul_plain_zero none x _ (ix2 p c)).trans ?_
    exact Finset.sum_congr rfl fun s _ =>
      congrArg (x (ix2 p s) * ·) (LibPlainDot.transpose2_apply (truncf .bf16 W hlt) hW s c)
  · refine (LibPlainDot.matmul_plain_zero none h _ (ix2 p c)).trans ?_
    exact Finset.sum_congr rfl fun k _ =>
      congrArg (h (ix2 p k) * ·) (LibPlainDot.transpose2_apply (truncf .bf16 U hlt) hU k c)

/-- A node gate of the block at (p, c): its pre-activation is the cell's, from row p's own features and summed hidden state. -/
theorem nodeGate_apply (v0 v1 : Vec Ideal S64x32x512 .f32) (W : Vec Ideal S256x512 .f32) (U : Vec Ideal S256x256 .f32)
    (b : Vec Ideal S256 .f32) (hlt : FTy.bits .bf16 < FTy.bits .f32)
    (hW : S256x512.Transposes [1, 0] S512x256) (hU : S256x256.Transposes [1, 0] S256x256)
    (h1 : S256.ShapeCasts S1x256) (h2 : S1x256.Broadcasts S64x256) (p : Fin 64) (c : Fin 256) :
    addf (addf (matmul dot_S64x512_S512x256_S64x256_1_0_0_1_n_n none (k0_pay4 v0) (transpose S512x256 [1, 0] (truncf .bf16 W hlt) hW) (constant S64x256 .f32 0x00000000#32))
               (matmul dot_S64x256_S256x256_S64x256_1_0_0_1_n_n none (k0_pay5 v1) (transpose S256x256 [1, 0] (truncf .bf16 U hlt) hU) (constant S64x256 .f32 0x00000000#32)))
         (broadcastTo S64x256 (shapeCast S1x256 b h1) h2) (ix2 p c)
      = lin (brow v0 p 0) (childSum (brow v1 p)) W U b c := by
  unfold lin
  refine congrArg₂ (· + ·) ?_ (LibPlainDot.rowBroadcastTo_apply b h1 h2 p c)
  refine (gate_apply _ rfl _ rfl (k0_pay4 v0) (k0_pay5 v1) W U hlt hW hU p c).trans ?_
  exact congrArg₂ (· + ·)
    (Finset.sum_congr rfl fun s _ => congrArg (· * W (ix2 c s)) (pay4_apply v0 p s))
    (Finset.sum_congr rfl fun k _ => congrArg (· * U (ix2 c k)) (pay5_apply v1 p k))

/-- The input gate of the block at (p, c). -/
theorem pay6_apply (v0 v1 : Vec Ideal S64x32x512 .f32) (W : Vec Ideal S256x512 .f32) (U : Vec Ideal S256x256 .f32)
    (b : Vec Ideal S256 .f32) (p : Fin 64) (c : Fin 256) :
    k0_pay6 v0 v1 W U b (ix2 p c) = Ideal.logistic (lin (brow v0 p 0) (childSum (brow v1 p)) W U b c) := by
  unfold k0_pay6
  exact (logistic_apply _ _).trans (congrArg Ideal.logistic (nodeGate_apply v0 v1 W U b _ _ _ _ _ p c))

/-- The output gate of the block at (p, c). -/
theorem pay7_apply (v0 v1 : Vec Ideal S64x32x512 .f32) (W : Vec Ideal S256x512 .f32) (U : Vec Ideal S256x256 .f32)
    (b : Vec Ideal S256 .f32) (p : Fin 64) (c : Fin 256) :
    k0_pay7 v0 v1 W U b (ix2 p c) = Ideal.logistic (lin (brow v0 p 0) (childSum (brow v1 p)) W U b c) := by
  unfold k0_pay7
  exact (logistic_apply _ _).trans (congrArg Ideal.logistic (nodeGate_apply v0 v1 W U b _ _ _ _ _ p c))

end Cert.KernelBlock

end
-- ==== Proof.Halves.lean ====
/-
  The output row as a join of two halves.

  Both programs lay the new hidden state and the new memory side by side along the feature axis. A join of two
  256-wide pieces read at column q is the first piece at q when q < 256 and the second piece at q − 256 otherwise; so
  if, on row p, the first piece is the cell's hidden state and the second its memory, the join on row p is the
  cell's output row.
-/
import proofs.«129001_j4526895530471_1_alg».proof.Proof.Cell
import Idealize.ShloMosaic.Lib.Pipeline.Value

noncomputable section

namespace Cert.Cell

open Idealize.ShloMosaic Idealize.ShloMosaic.ValueIdx

theorem join_outRow {R : Nat} (x₁ x₂ : (⟨2, ![R, 256]⟩ : Shape).Idx → EReal)
    (h : Shape.Concatenates [(⟨2, ![R, 256]⟩ : Shape), ⟨2, ![R, 256]⟩] ⟨2, ![R, 512]⟩ 1) (p : Fin R) (q : Fin 512)
    (rz rc : Row) (Wi : FVec Ideal SW .f32) (Ui : FVec Ideal SU .f32) (bi : FVec Ideal SB .f32)
    (Wf : FVec Ideal SW .f32) (Uf : FVec Ideal SU .f32) (bf : FVec Ideal SB .f32)
    (Wo : FVec Ideal SW .f32) (Uo : FVec Ideal SU .f32) (bo : FVec Ideal SB .f32)
    (Wu : FVec Ideal SW .f32) (Uu : FVec Ideal SU .f32) (bu : FVec Ideal SB .f32)
    (h₁ : ∀ c : Fin 256, x₁ (ix2 p c) = hidden rz rc Wi Ui bi Wf Uf bf Wo Uo bo Wu Uu bu c)
    (h₂ : ∀ c : Fin 256, x₂ (ix2 p c) = cellState rz rc Wi Ui bi Wf Uf bf Wu Uu bu c) :
    concatenate (⟨2, ![R, 512]⟩ : Shape) 1 [⟨⟨2, ![R, 256]⟩, x₁⟩, ⟨⟨2, ![R, 256]⟩, x₂⟩] h (ix2 p q)
      = outRow rz rc Wi Ui bi Wf Uf bf Wo Uo bo Wu Uu bu q := by
  by_cases hq : q.val < 256
  · refine (concatenate_pair_apply_left (1 : Fin 2) x₁ x₂ h (ix2 p q) rfl (ix2 p ⟨q.val, hq⟩) (fun a => by
      match a with
      | ⟨0, _⟩ => rfl
      | ⟨1, _⟩ => rfl)).trans ?_
    rw [outRow_lo rz rc Wi Ui bi Wf Uf bf Wo Uo bo Wu Uu bu q ⟨q.val, hq⟩ rfl]
    exact h₁ _
  · have hq' : q.val - 256 < 256 := by have := q.isLt; omega
    refine (concatenate_pair_apply_right (1 : Fin 2) x₁ x₂ h (ix2 p q) rfl rfl (ix2 p ⟨q.val - 256, hq'⟩) (fun a ha => by
      match a with
      | ⟨0, _⟩ => rfl
      | ⟨1, _⟩ => exact absurd rfl ha) (by show (q.val - 256) + 256 = q.val; omega)).trans ?_
    rw [outRow_hi rz rc Wi Ui bi Wf Uf bf Wo Uo bo Wu Uu bu q ⟨q.val - 256, hq'⟩ (by show q.val = 256 + (q.val - 256); omega)]
    exact h₂ _

end Cert.Cell

end
-- ==== Proof.KernelRow.lean ====
/-
  The kernel body's output block at an index, as the tree cell's output row.

  The forget gate is computed for all 64 × 32 (row, child) pairs at once: the node block and the children's hidden
  half are re-laid as matrices of 2048 rows, row p·32 + n holding (p, n); the two products and their sum are taken on
  those, and the result is re-laid as [64, 32, 256]. Re-laying keeps row-major positions, so the forget gate at
  (p, n, c) is the gate of child n's own node features and hidden state. The new memory at (p, c) is input gate times
  candidate plus the sum over children of forget gate times the child's memory; the new hidden state is output gate
  times its tanh; the block's output row is the two side by side.
-/
import proofs.«129001_j4526895530471_1_alg».proof.Proof.KernelBlock
import proofs.«129001_j4526895530471_1_alg».proof.Proof.Halves

noncomputable section

namespace Cert.KernelBlock

open Idealize.ShloMosaic Idealize.ShloMosaic.ValueIdx Cert.KernelIdeal Cert.KernelIdeal.Gen Cert.Cell

/-- Row p·32 + n of the block re-laid as 2048 rows. -/
def flat (p : Fin 64) (n : Fin 32) : Fin 2048 := ⟨p.val * 32 + n.val, by have := p.isLt; have := n.isLt; omega⟩

/-- The node block re-laid as [2048, 512], at row p·32 + n. -/
theorem flatNode_apply (v0 : Vec Ideal S64x32x512 .f32) (h : S64x32x512.ShapeCasts S2048x512) (p : Fin 64) (n : Fin 32) (s : Fin 512) :
    shapeCast S2048x512 v0 h (ix2 (flat p n) s) = v0 (ix3 p n s) :=
  shapeCast_apply v0 h (ix2 (flat p n) s) (ix3 p n s) (by
    rw [Shape.rowMajor_val_three, Shape.rowMajor_val_two]
    show (p.val * 32 + n.val) * 512 + s.val = (p.val * 32 + n.val) * 512 + s.val
    rfl)

/-- The children's hidden half re-laid as [2048, 256], at row p·32 + n. -/
theorem flatChild_apply (v4 : FVec Ideal S64x32x256 .f32) (h : S64x32x256.ShapeCasts S2048x256) (p : Fin 64) (n : Fin 32) (k : Fin 256) :
    shapeCast S2048x256 v4 h (ix2 (flat p n) k) = v4 (ix3 p n k) :=
  shapeCast_apply v4 h (ix2 (flat p n) k) (ix3 p n k) (by
    rw [Shape.rowMajor_val_three, Shape.rowMajor_val_two]
    show (p.val * 32 + n.val) * 256 + k.val = (p.val * 32 + n.val) * 256 + k.val
    rfl)

/-- A [2048, 256] matrix re-laid as [64, 32, 256], at (p, n, c). -/
theorem unflat_apply (v : FVec Ideal S2048x256 .f32) (h : S2048x256.ShapeCasts S64x32x256) (p : Fin 64) (n : Fin 32) (c : Fin 256) :
    shapeCast S64x32x256 v h (ix3 p n c) = v (ix2 (flat p n) c) :=
  shapeCast_apply v h (ix3 p n c) (ix2 (flat p n) c) (by
    rw [Shape.rowMajor_val_three, Shape.rowMajor_val_two]
    show (p.val * 32 + n.val) * 256 + c.val = (p.val * 32 + n.val) * 256 + c.val
    rfl)

/-- A bias vector laid along the last of three axes, at (p, n, c). -/
theorem bias3_apply (b : Vec Ideal S256 .f32) (h1 : S256.ShapeCasts S1x1x256) (h2 : S1x1x256.Broadcasts S64x32x256)
    (p : Fin 64) (n : Fin 32) (c : Fin 256) :
    broadcastTo S64x32x256 (shapeCast S1x1x256 b h1) h2 (ix3 p n c) = b (ix1 c) := by
  refine (broadcastTo_apply _ h2 (ix3 p n c) (ix3 (0 : Fin 1) (0 : Fin 1) c) (fun a => by
    match a with
    | ⟨0, _⟩ => show (0 : Nat) = if (1 : Nat) = 1 then 0 else _; rw [if_pos rfl]
    | ⟨1, _⟩ => show (0 : Nat) = if (1 : Nat) = 1 then 0 else _; rw [if_pos rfl]
    | ⟨2, _⟩ => show c.val = if (256 : Nat) = 1 then 0 else c.val; rw [if_neg (by decide)])).trans ?_
  exact shapeCast_apply b h1 (ix3 (0 : Fin 1) (0 : Fin 1) c) (ix1 c) (by
    rw [Shape.rowMajor_val_one, Shape.rowMajor_val_three]
    show c.val = ((0 : Nat) * 1 + 0) * 256 + c.val
    omega)

/-- The reduced index (p, c) with child n put back on the middle axis is (p, n, c). -/
theorem lift_ix (h : S64x32x256.Reduces [1] S64x256) (p : Fin 64) (n : Fin 32) (c : Fin 256) :
    h.lift (ix2 p c) n = ix3 p n c :=
  funext fun a => Fin.ext (by
    match a with
    | ⟨0, _⟩ => rfl
    | ⟨1, _⟩ => rfl
    | ⟨2, _⟩ => rfl)

/-- The forget gate's pre-activation at (p, n, c). -/
theorem childGate_apply (v0 v1 : Vec Ideal S64x32x512 .f32) (W : Vec Ideal S256x512 .f32) (U : Vec Ideal S256x256 .f32)
    (b : Vec Ideal S256 .f32) (hlt : FTy.bits .bf16 < FTy.bits .f32)
    (hW : S256x512.Transposes [1, 0] S512x256) (hU : S256x256.Transposes [1, 0] S256x256)
    (hz : S64x32x512.ShapeCasts S2048x512) (hc : S64x32x256.ShapeCasts S2048x256) (hu : S2048x256.ShapeCasts S64x32x256)
    (h1 : S256.ShapeCasts S1x1x256) (h2 : S1x1x256.Broadcasts S64x32x256) (p : Fin 64) (n : Fin 32) (c : Fin 256) :
    addf (shapeCast S64x32x256
            (addf (matmul dot_S2048x512_S512x256_S2048x256_1_0_0_1_n_n none (truncf .bf16 (shapeCast S2048x512 v0 hz) hlt)
                    (transpose S512x256 [1, 0] (truncf .bf16 W hlt) hW) (constant S2048x256 .f32 0x00000000#32))
                  (matmul dot_S2048x256_S256x256_S2048x256_1_0_0_1_n_n none (truncf .bf16 (shapeCast S2048x256 (k0_pay1 v1) hc) hlt)
                    (transpose S256x256 [1, 0] (truncf .bf16 U hlt) hU) (constant S2048x256 .f32 0x00000000#32))) hu)
         (broadcastTo S64x32x256 (shapeCast S1x1x256 b h1) h2) (ix3 p n c)
      = lin (brow v0 p n) (fun k => brow v1 p n (lo k)) W U b c := by
  unfold lin
  refine congrArg₂ (· + ·) ?_ (bias3_apply b h1 h2 p n c)
  refine (unflat_apply _ hu p n c).trans ?_
  refine (gate_apply _ rfl _ rfl _ _ W U hlt hW hU (flat p n) c).trans ?_
  exact congrArg₂ (· + ·)
    (Finset.sum_congr rfl fun s _ => congrArg (· * W (ix2 c s))
      ((truncf_apply (φ := .f32) (ψ := .bf16) _ _ _).trans (flatNode_apply v0 hz p n s)))
    (Finset.sum_congr rfl fun k _ => congrArg (· * U (ix2 c k))
      ((truncf_apply (φ := .f32) (ψ := .bf16) _ _ _).trans ((flatChild_apply _ hc p n k).trans (pay1_apply v1 p n k))))

/-- The block's output at (p, q): the cell's output row of row p. (Arguments in the body's order: the input gate's
    and the output gate's weights enter through the two gates, then the candidate's and the forget gate's.) -/
theorem pay8_apply (v0 v1 : Vec Ideal S64x32x512 .f32)
    (Wi : Vec Ideal S256x512 .f32) (Ui : Vec Ideal S256x256 .f32) (bi : Vec Ideal S256 .f32)
    (Wf : Vec Ideal S256x512 .f32) (Uf : Vec Ideal S256x256 .f32) (bf : Vec Ideal S256 .f32)
    (Wo : Vec Ideal S256x512 .f32) (Uo : Vec Ideal S256x256 .f32) (bo : Vec Ideal S256 .f32)
    (Wu : Vec Ideal S256x512 .f32) (Uu : Vec Ideal S256x256 .f32) (bu : Vec Ideal S256 .f32) (p : Fin 64) (q : Fin 512) :
    k0_pay8 v0 (k0_pay1 v1) (k0_pay2 v1) (k0_pay4 v0) (k0_pay5 v1) (k0_pay6 v0 v1 Wi Ui bi) (k0_pay7 v0 v1 Wo Uo bo)
        Wu Uu bu Wf Uf bf (ix2 p q)
      = outRow (brow v0 p) (brow v1 p) Wi Ui bi Wf Uf bf Wo Uo bo Wu Uu bu q := by
  have key : ∀ (X : FVec Ideal S64x256 .f32) (h : Shape.Concatenates [S64x256, S64x256] S64x512 1),
      (∀ c : Fin 256, X (ix2 p c) = cellState (brow v0 p) (brow v1 p) Wi Ui bi Wf Uf bf Wu Uu bu c) →
      concatenate S64x512 1 [⟨S64x256, mulf (k0_pay7 v0 v1 Wo Uo bo) (tanh X)⟩, ⟨S64x256, X⟩] h (ix2 p q)
        = outRow (brow v0 p) (brow v1 p) Wi Ui bi Wf Uf bf Wo Uo bo Wu Uu bu q := by
    intro X h hX
    exact join_outRow _ _ h p q _ _ Wi Ui bi Wf Uf bf Wo Uo bo Wu Uu bu
      (fun c => congrArg₂ (· * ·) (pay7_apply v0 v1 Wo Uo bo p c) ((tanh_apply _ _).trans (congrArg Ideal.tanh (hX c)))) hX
  unfold k0_pay8
  refine key _ _ (fun c => ?_)
  unfold cellState
  refine congrArg₂ (· + ·)
    (congrArg₂ (· * ·) (pay6_apply v0 v1 Wi Ui bi p c)
      ((tanh_apply _ _).trans (congrArg Ideal.tanh (nodeGate_apply v0 v1 Wu Uu bu _ _ _ _ _ p c)))) ?_
  refine (Ideal.multiReduction_add_single _ _ _ _ _ _).trans (Finset.sum_congr rfl fun n _ => ?_)
  refine (congrArg _ (lift_ix _ p n c)).trans ?_
  exact congrArg₂ (· * ·)
    ((logistic_apply _ _).trans (congrArg Ideal.logistic (childGate_apply v0 v1 Wf Uf bf _ _ _ _ _ _ _ _ p n c)))
    (pay2_apply v1 p n c)

end Cert.KernelBlock

end
-- ==== Proof.Arrays.lean ====
/-
  The two results as whole arrays.

  The cell acts on each batch row by itself, so each result array is one function of the argument arrays, index by
  index: the first result at (b, q) is the cell's output row of batch row b at feature q, and the second at (b, k) is
  the children's summed hidden state of batch row b at feature k.
-/
import proofs.«129001_j4526895530471_1_alg».proof.Proof.Cell

noncomputable section

namespace Cert.Cell

open Idealize.ShloMosaic Idealize.ShloMosaic.ValueIdx

abbrev SZ : Shape := ⟨3, ![4096, 32, 512]⟩

/-- Batch row b of a [4096, 32, 512] array. -/
abbrev rowOf (a : FVec Ideal SZ .f32) (b : Fin 4096) : Row := fun n s => a (ix3 b n s)

/-- The first result: hidden state and memory of every batch row, side by side. -/
def outArr (z zc : FVec Ideal SZ .f32) (Wi : FVec Ideal SW .f32) (Ui : FVec Ideal SU .f32) (bi : FVec Ideal SB .f32)
    (Wf : FVec Ideal SW .f32) (Uf : FVec Ideal SU .f32) (bf : FVec Ideal SB .f32)
    (Wo : FVec Ideal SW .f32) (Uo : FVec Ideal SU .f32) (bo : FVec Ideal SB .f32)
    (Wu : FVec Ideal SW .f32) (Uu : FVec Ideal SU .f32) (bu : FVec Ideal SB .f32) : FVec Ideal ⟨2, ![4096, 512]⟩ .f32 :=
  fun i => outRow (rowOf z (i 0)) (rowOf zc (i 0)) Wi Ui bi Wf Uf bf Wo Uo bo Wu Uu bu (i 1)

/-- The second result: the children's summed hidden state of every batch row. -/
def sumArr (zc : FVec Ideal SZ .f32) : FVec Ideal ⟨2, ![4096, 256]⟩ .f32 :=
  fun i => childSum (rowOf zc (i 0)) (i 1)

end Cert.Cell

end
-- ==== Proof.KernelArray.lean ====
/-
  From blocks to arrays: what the kernel's run leaves in its two result arrays.

  The grid has 64 points; point t stages batch rows 64·t … 64·t + 63 of the node and children tensors, stages every
  weight whole, and writes back rows 64·t … 64·t + 63 of both results. The body's output block is the cell of each of
  its rows, and a row of a block IS a row of the array, so what point t writes back is block t of the whole-array
  function; the 64 blocks tile the arrays (row r lies in block r / 64), so after the run each result array is that
  function of the argument arrays.
-/
import proofs.«129001_j4526895530471_1_alg».proof.Proof.Gen.KernelIdeal.Value
import proofs.«129001_j4526895530471_1_alg».proof.Proof.KernelRow
import proofs.«129001_j4526895530471_1_alg».proof.Proof.Arrays

noncomputable section

namespace Cert.KernelArray

open Cert.KernelIdeal Cert.KernelIdeal.Gen Idealize.ShloMosaic Idealize.ShloMosaic.TcCoe Idealize.SL.Sem
open Idealize.ShloMosaic.Pipeline (Dat)
open Idealize.ShloMosaic.ValueIdx Cert.Cell Cert.KernelBlock

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 64 points: the two tensors and the two results move one block of rows
    per point and stay at block 0 on the other axes. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_14.index t (0 : Fin 2) = t.val ∧ win0_14.index t (1 : Fin 2) = 0
    ∧ win0_15.index t (0 : Fin 2) = t.val ∧ win0_15.index t (1 : Fin 2) = 0 :=
  (by decide +kernel : ∀ t : Fin grid0.N, _)

theorem point_lt (t : Fin cfg0.N) : t.val < 64 := lt_of_lt_of_eq t.isLt N_0

/-- Row p of point t's block is batch row 64·t + p. -/
def grow (t : Fin cfg0.N) (p : Fin 64) : Fin 4096 := ⟨t.val * 64 + p.val, by have := point_lt t; have := p.isLt; omega⟩

/-- The node block of point t at (p, n, s) is the node tensor at (64·t + p, n, s). -/
theorem node_read (c : Dev nD) (t : Fin cfg0.N) (p : Fin 64) (n : Fin 32) (s : Fin 512) :
    iblk m c 0 t (ix3 p n s) = V m c main_arg0 (ix3 (grow t p) n s) := by
  obtain ⟨e0, e1, e2, -⟩ := idx_facts t
  show V m c main_arg0 (((cfg0.win 0).blk t).view.emb (ix3 p n s)) = V m c main_arg0 (ix3 (grow t p) n s)
  refine congrArg _ (funext fun a => Fin.ext ?_)
  match a with
  | ⟨0, _⟩ => show win0_0.index t (0 : Fin 3) * 64 + 1 * p.val = t.val * 64 + p.val; rw [e0]; omega
  | ⟨1, _⟩ => show win0_0.index t (1 : Fin 3) * 32 + 1 * n.val = n.val; rw [e1]; omega
  | ⟨2, _⟩ => show win0_0.index t (2 : Fin 3) * 512 + 1 * s.val = s.val; rw [e2]; omega

/-- The children block of point t at (p, n, s) is the children tensor at (64·t + p, n, s). -/
theorem child_read (c : Dev nD) (t : Fin cfg0.N) (p : Fin 64) (n : Fin 32) (s : Fin 512) :
    iblk m c 1 t (ix3 p n s) = V m c main_arg1 (ix3 (grow t p) n s) := by
  obtain ⟨-, -, -, e0, e1, e2, -⟩ := idx_facts t
  show V m c main_arg1 (((cfg0.win 1).blk t).view.emb (ix3 p n s)) = V m c main_arg1 (ix3 (grow t p) n s)
  refine congrArg _ (funext fun a => Fin.ext ?_)
  match a with
  | ⟨0, _⟩ => show win0_1.index t (0 : Fin 3) * 64 + 1 * p.val = t.val * 64 + p.val; rw [e0]; omega
  | ⟨1, _⟩ => show win0_1.index t (1 : Fin 3) * 32 + 1 * n.val = n.val; rw [e1]; omega
  | ⟨2, _⟩ => show win0_1.index t (2 : Fin 3) * 512 + 1 * s.val = s.val; rw [e2]; omega

theorem wfacts2 : ∀ t : Fin cfg0.N, win0_2.index t (0 : Fin 2) = 0 ∧ win0_2.index t (1 : Fin 2) = 0 :=
  (by decide +kernel : ∀ t : Fin grid0.N, _)
/-- Window 2's block is its whole array at every point. -/
theorem wblk2 (c : Dev nD) (t : Fin cfg0.N) : iblk m c 2 t = V m c main_arg2 := by
  funext y
  show V m c main_arg2 (((cfg0.win 2).blk t).view.emb y) = V m c main_arg2 y
  refine congrArg _ (funext fun a => Fin.ext ?_)
  match a with
      | ⟨0, _⟩ => show win0_2.index t (0 : Fin 2) * 256 + 1 * (y 0).val = (y 0).val; rw [(wfacts2 t).1]; omega
      | ⟨1, _⟩ => show win0_2.index t (1 : Fin 2) * 512 + 1 * (y 1).val = (y 1).val; rw [(wfacts2 t).2]; omega

theorem wfacts3 : ∀ t : Fin cfg0.N, win0_3.index t (0 : Fin 2) = 0 ∧ win0_3.index t (1 : Fin 2) = 0 :=
  (by decide +kernel : ∀ t : Fin grid0.N, _)
/-- Window 3's block is its whole array at every point. -/
theorem wblk3 (c : Dev nD) (t : Fin cfg0.N) : iblk m c 3 t = V m c main_arg3 := by
  funext y
  show V m c main_arg3 (((cfg0.win 3).blk t).view.emb y) = V m c main_arg3 y
  refine congrArg _ (funext fun a => Fin.ext ?_)
  match a with
      | ⟨0, _⟩ => show win0_3.index t (0 : Fin 2) * 256 + 1 * (y 0).val = (y 0).val; rw [(wfacts3 t).1]; omega
      | ⟨1, _⟩ => show win0_3.index t (1 : Fin 2) * 256 + 1 * (y 1).val = (y 1).val; rw [(wfacts3 t).2]; omega

theorem wfacts4 : ∀ t : Fin cfg0.N, win0_4.index t (0 : Fin 1) = 0 :=
  (by decide +kernel : ∀ t : Fin grid0.N, _)
/-- Window 4's block is its whole array at every point. -/
theorem wblk4 (c : Dev nD) (t : Fin cfg0.N) : iblk m c 4 t = V m c main_arg4 := by
  funext y
  show V m c main_arg4 (((cfg0.win 4).blk t).view.emb y) = V m c main_arg4 y
  refine congrArg _ (funext fun a => Fin.ext ?_)
  match a with
      | ⟨0, _⟩ => show win0_4.index t (0 : Fin 1) * 256 + 1 * (y 0).val = (y 0).val; rw [wfacts4 t]; omega

theorem wfacts5 : ∀ t : Fin cfg0.N, win0_5.index t (0 : Fin 2) = 0 ∧ win0_5.index t (1 : Fin 2) = 0 :=
  (by decide +kernel : ∀ t : Fin grid0.N, _)
/-- Window 5's block is its whole array at every point. -/
theorem wblk5 (c : Dev nD) (t : Fin cfg0.N) : iblk m c 5 t = V m c main_arg5 := by
  funext y
  show V m c main_arg5 (((cfg0.win 5).blk t).view.emb y) = V m c main_arg5 y
  refine congrArg _ (funext fun a => Fin.ext ?_)
  match a with
      | ⟨0, _⟩ => show win0_5.index t (0 : Fin 2) * 256 + 1 * (y 0).val = (y 0).val; rw [(wfacts5 t).1]; omega
      | ⟨1, _⟩ => show win0_5.index t (1 : Fin 2) * 512 + 1 * (y 1).val = (y 1).val; rw [(wfacts5 t).2]; omega

theorem wfacts6 : ∀ t : Fin cfg0.N, win0_6.index t (0 : Fin 2) = 0 ∧ win0_6.index t (1 : Fin 2) = 0 :=
  (by decide +kernel : ∀ t : Fin grid0.N, _)
/-- Window 6's block is its whole array at every point. -/
theorem wblk6 (c : Dev nD) (t : Fin cfg0.N) : iblk m c 6 t = V m c main_arg6 := by
  funext y
  show V m c main_arg6 (((cfg0.win 6).blk t).view.emb y) = V m c main_arg6 y
  refine congrArg _ (funext fun a => Fin.ext ?_)
  match a with
      | ⟨0, _⟩ => show win0_6.index t (0 : Fin 2) * 256 + 1 * (y 0).val = (y 0).val; rw [(wfacts6 t).1]; omega
      | ⟨1, _⟩ => show win0_6.index t (1 : Fin 2) * 256 + 1 * (y 1).val = (y 1).val; rw [(wfacts6 t).2]; omega

theorem wfacts7 : ∀ t : Fin cfg0.N, win0_7.index t (0 : Fin 1) = 0 :=
  (by decide +kernel : ∀ t : Fin grid0.N, _)
/-- Window 7's block is its whole array at every point. -/
theorem wblk7 (c : Dev nD) (t : Fin cfg0.N) : iblk m c 7 t = V m c main_arg7 := by
  funext y
  show V m c main_arg7 (((cfg0.win 7).blk t).view.emb y) = V m c main_arg7 y
  refine congrArg _ (funext fun a => Fin.ext ?_)
  match a with
      | ⟨0, _⟩ => show win0_7.index t (0 : Fin 1) * 256 + 1 * (y 0).val = (y 0).val; rw [wfacts7 t]; omega

theorem wfacts8 : ∀ t : Fin cfg0.N, win0_8.index t (0 : Fin 2) = 0 ∧ win0_8.index t (1 : Fin 2) = 0 :=
  (by decide +kernel : ∀ t : Fin grid0.N, _)
/-- Window 8's block is its whole array at every point. -/
theorem wblk8 (c : Dev nD) (t : Fin cfg0.N) : iblk m c 8 t = V m c main_arg8 := by
  funext y
  show V m c main_arg8 (((cfg0.win 8).blk t).view.emb y) = V m c main_arg8 y
  refine congrArg _ (funext fun a => Fin.ext ?_)
  match a with
      | ⟨0, _⟩ => show win0_8.index t (0 : Fin 2) * 256 + 1 * (y 0).val = (y 0).val; rw [(wfacts8 t).1]; omega
      | ⟨1, _⟩ => show win0_8.index t (1 : Fin 2) * 512 + 1 * (y 1).val = (y 1).val; rw [(wfacts8 t).2]; omega

theorem wfacts9 : ∀ t : Fin cfg0.N, win0_9.index t (0 : Fin 2) = 0 ∧ win0_9.index t (1 : Fin 2) = 0 :=
  (by decide +kernel : ∀ t : Fin grid0.N, _)
/-- Window 9's block is its whole array at every point. -/
theorem wblk9 (c : Dev nD) (t : Fin cfg0.N) : iblk m c 9 t = V m c main_arg9 := by
  funext y
  show V m c main_arg9 (((cfg0.win 9).blk t).view.emb y) = V m c main_arg9 y
  refine congrArg _ (funext fun a => Fin.ext ?_)
  match a with
      | ⟨0, _⟩ => show win0_9.index t (0 : Fin 2) * 256 + 1 * (y 0).val = (y 0).val; rw [(wfacts9 t).1]; omega
      | ⟨1, _⟩ => show win0_9.index t (1 : Fin 2) * 256 + 1 * (y 1).val = (y 1).val; rw [(wfacts9 t).2]; omega

theorem wfacts10 : ∀ t : Fin cfg0.N, win0_10.index t (0 : Fin 1) = 0 :=
  (by decide +kernel : ∀ t : Fin grid0.N, _)
/-- Window 10's block is its whole array at every point. -/
theorem wblk10 (c : Dev nD) (t : Fin cfg0.N) : iblk m c 10 t = V m c main_arg10 := by
  funext y
  show V m c main_arg10 (((cfg0.win 10).blk t).view.emb y) = V m c main_arg10 y
  refine congrArg _ (funext fun a => Fin.ext ?_)
  match a with
      | ⟨0, _⟩ => show win0_10.index t (0 : Fin 1) * 256 + 1 * (y 0).val = (y 0).val; rw [wfacts10 t]; omega

theorem wfacts11 : ∀ t : Fin cfg0.N, win0_11.index t (0 : Fin 2) = 0 ∧ win0_11.index t (1 : Fin 2) = 0 :=
  (by decide +kernel : ∀ t : Fin grid0.N, _)
/-- Window 11's block is its whole array at every point. -/
theorem wblk11 (c : Dev nD) (t : Fin cfg0.N) : iblk m c 11 t = V m c main_arg11 := by
  funext y
  show V m c main_arg11 (((cfg0.win 11).blk t).view.emb y) = V m c main_arg11 y
  refine congrArg _ (funext fun a => Fin.ext ?_)
  match a with
      | ⟨0, _⟩ => show win0_11.index t (0 : Fin 2) * 256 + 1 * (y 0).val = (y 0).val; rw [(wfacts11 t).1]; omega
      | ⟨1, _⟩ => show win0_11.index t (1 : Fin 2) * 512 + 1 * (y 1).val = (y 1).val; rw [(wfacts11 t).2]; omega

theorem wfacts12 : ∀ t : Fin cfg0.N, win0_12.index t (0 : Fin 2) = 0 ∧ win0_12.index t (1 : Fin 2) = 0 :=
  (by decide +kernel : ∀ t : Fin grid0.N, _)
/-- Window 12's block is its whole array at every point. -/
theorem wblk12 (c : Dev nD) (t : Fin cfg0.N) : iblk m c 12 t = V m c main_arg12 := by
  funext y
  show V m c main_arg12 (((cfg0.win 12).blk t).view.emb y) = V m c main_arg12 y
  refine congrArg _ (funext fun a => Fin.ext ?_)
  match a with
      | ⟨0, _⟩ => show win0_12.index t (0 : Fin 2) * 256 + 1 * (y 0).val = (y 0).val; rw [(wfacts12 t).1]; omega
      | ⟨1, _⟩ => show win0_12.index t (1 : Fin 2) * 256 + 1 * (y 1).val = (y 1).val; rw [(wfacts12 t).2]; omega

theorem wfacts13 : ∀ t : Fin cfg0.N, win0_13.index t (0 : Fin 1) = 0 :=
  (by decide +kernel : ∀ t : Fin grid0.N, _)
/-- Window 13's block is its whole array at every point. -/
theorem wblk13 (c : Dev nD) (t : Fin cfg0.N) : iblk m c 13 t = V m c main_arg13 := by
  funext y
  show V m c main_arg13 (((cfg0.win 13).blk t).view.emb y) = V m c main_arg13 y
  refine congrArg _ (funext fun a => Fin.ext ?_)
  match a with
      | ⟨0, _⟩ => show win0_13.index t (0 : Fin 1) * 256 + 1 * (y 0).val = (y 0).val; rw [wfacts13 t]; omega

/-- Position (p, q) of point t's block of the first result is (64·t + p, q) of the array. -/
theorem emb14 (t : Fin cfg0.N) (p : Fin 64) (q : Fin 512) :
    ((cfg0.win 14).blk t).view.emb (ix2 p q) = ix2 (grow t p) q := by
  obtain ⟨-, -, -, -, -, -, e0, e1, -⟩ := idx_facts t
  refine funext fun a => Fin.ext ?_
  match a with
  | ⟨0, _⟩ => show win0_14.index t (0 : Fin 2) * 64 + 1 * p.val = t.val * 64 + p.val; rw [e0]; omega
  | ⟨1, _⟩ => show win0_14.index t (1 : Fin 2) * 512 + 1 * q.val = q.val; rw [e1]; omega

/-- Position (p, k) of point t's block of the second result is (64·t + p, k) of the array. -/
theorem emb15 (t : Fin cfg0.N) (p : Fin 64) (k : Fin 256) :
    ((cfg0.win 15).blk t).view.emb (ix2 p k) = ix2 (grow t p) k := by
  obtain ⟨-, -, -, -, -, -, -, -, e0, e1⟩ := idx_facts t
  refine funext fun a => Fin.ext ?_
  match a with
  | ⟨0, _⟩ => show win0_15.index t (0 : Fin 2) * 64 + 1 * p.val = t.val * 64 + p.val; rw [e0]; omega
  | ⟨1, _⟩ => show win0_15.index t (1 : Fin 2) * 256 + 1 * k.val = k.val; rw [e1]; omega

/-- The first result as a function of the argument arrays as the region finds them. -/
abbrev out14 (c : Dev nD) : S4096x512.Idx → Elt Ideal .f32 :=
  outArr (V m c main_arg0) (V m c main_arg1) (V m c main_arg2) (V m c main_arg3) (V m c main_arg4) (V m c main_arg5) (V m c main_arg6)
    (V m c main_arg7) (V m c main_arg8) (V m c main_arg9) (V m c main_arg10) (V m c main_arg11) (V m c main_arg12) (V m c main_arg13)

/-- The second result likewise. -/
abbrev out15 (c : Dev nD) : S4096x256.Idx → Elt Ideal .f32 := sumArr (V m c main_arg1)

/-- The body's output block over blocks that are rows of the arrays: the whole-array function at the array's row. -/
theorem block14 (x0 x1 : Vec Ideal S64x32x512 .f32) (a0 a1 : S4096x32x512.Idx → Elt Ideal .f32)
    (Wi : Vec Ideal S256x512 .f32) (Ui : Vec Ideal S256x256 .f32) (bi : Vec Ideal S256 .f32)
    (Wf : Vec Ideal S256x512 .f32) (Uf : Vec Ideal S256x256 .f32) (bf : Vec Ideal S256 .f32)
    (Wo : Vec Ideal S256x512 .f32) (Uo : Vec Ideal S256x256 .f32) (bo : Vec Ideal S256 .f32)
    (Wu : Vec Ideal S256x512 .f32) (Uu : Vec Ideal S256x256 .f32) (bu : Vec Ideal S256 .f32)
    (p : Fin 64) (r : Fin 4096) (q : Fin 512)
    (h0 : ∀ n s, x0 (ix3 p n s) = a0 (ix3 r n s)) (h1 : ∀ n s, x1 (ix3 p n s) = a1 (ix3 r n s)) :
    k0_pay8 x0 (k0_pay1 x1) (k0_pay2 x1) (k0_pay4 x0) (k0_pay5 x1) (k0_pay6 x0 x1 Wi Ui bi) (k0_pay7 x0 x1 Wo Uo bo)
        Wu Uu bu Wf Uf bf (ix2 p q)
      = outArr a0 a1 Wi Ui bi Wf Uf bf Wo Uo bo Wu Uu bu (ix2 r q) := by
  have hb0 : brow x0 p = rowOf a0 r := funext fun n => funext fun s => h0 n s
  have hb1 : brow x1 p = rowOf a1 r := funext fun n => funext fun s => h1 n s
  rw [pay8_apply, hb0, hb1]
  rfl

theorem block15 (x1 : Vec Ideal S64x32x512 .f32) (a1 : S4096x32x512.Idx → Elt Ideal .f32) (p : Fin 64) (r : Fin 4096) (k : Fin 256)
    (h1 : ∀ n s, x1 (ix3 p n s) = a1 (ix3 r n s)) :
    k0_pay3 x1 (ix2 p k) = sumArr a1 (ix2 r k) := by
  have hb1 : brow x1 p = rowOf a1 r := funext fun n => funext fun s => h1 n s
  rw [pay3_apply, hb1]
  rfl

/-- WHAT POINT t WRITES BACK to the first result is block t of the whole-array function. -/
theorem flushed14_eq (c : Dev nD) (t : Fin cfg0.N) :
    (dats m 0 c).flushed 14 t = ((cfg0.win 14).blk t).view.read (Elt Ideal) (out14 m c) := by
  rw [Value.flushed14]
  unfold out0_14
  rw [View.canon_unit_zero hz2]
  simp only [View.ld_unit_zero (S := S64x32x512) hz3, View.ld_unit_zero (S := S256x512) hz2, View.ld_unit_zero (S := S256x256) hz2,
    View.ld_unit_zero (S := S256) hz1]
  refine funext fun (j : S64x512.Idx) => ?_
  obtain ⟨p, q, rfl⟩ : ∃ (p : Fin 64) (q : Fin 512), j = ix2 p q := ⟨j 0, j 1, eq_ix2 j⟩
  refine (block14 (iblk m c 0 t) (iblk m c 1 t) (V m c main_arg0) (V m c main_arg1)
    (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t)
    p (grow t p) q (node_read m c t p) (child_read m c t p)).trans ?_
  rw [wblk2, wblk3, wblk4, wblk5, wblk6, wblk7, wblk8, wblk9, wblk10, wblk11, wblk12, wblk13]
  exact congrArg (out14 m c) (emb14 t p q).symm

/-- WHAT POINT t WRITES BACK to the second result is block t of the whole-array function. -/
theorem flushed15_eq (c : Dev nD) (t : Fin cfg0.N) :
    (dats m 0 c).flushed 15 t = ((cfg0.win 15).blk t).view.read (Elt Ideal) (out15 m c) := by
  rw [Value.flushed15]
  unfold out0_15
  rw [View.canon_unit_zero hz2]
  simp only [View.ld_unit_zero (S := S64x32x512) hz3]
  refine funext fun (j : S64x256.Idx) => ?_
  obtain ⟨p, k, rfl⟩ : ∃ (p : Fin 64) (k : Fin 256), j = ix2 p k := ⟨j 0, j 1, eq_ix2 j⟩
  refine (block15 (iblk m c 1 t) (V m c main_arg1) p (grow t p) k (child_read m c t p)).trans ?_
  exact congrArg (out15 m c) (emb15 t p k).symm

/-- Every index of the first result lies in the block of the point that holds its row. -/
theorem cover14 (i : S4096x512.Idx) : ∃ t : Fin cfg0.N, (cfg0.win 14).flush t = true ∧ i ∈ ((cfg0.win 14).blk t).view.set := by
  have h0 : (i 0).val < 4096 := (i 0).isLt
  have h1 : (i 1).val < 512 := (i 1).isLt
  let t : Fin cfg0.N := ⟨(i 0).val / 64, lt_of_lt_of_eq (by omega) N_0.symm⟩
  obtain ⟨-, -, -, -, -, -, e0, e1, -⟩ := idx_facts t
  refine ⟨t, flush0_14 t, ?_⟩
  show i ∈ ((View.whole main_v0_0).slice (win0_14.rect t)).set
  rw [View.set_slice_whole, Rect.mem_set_unit]
  intro a
  match a with
  | ⟨0, _⟩ =>
    show win0_14.index t (0 : Fin 2) * 64 ≤ (i 0).val ∧ (i 0).val < win0_14.index t (0 : Fin 2) * 64 + 64
    rw [e0]; show (i 0).val / 64 * 64 ≤ (i 0).val ∧ (i 0).val < (i 0).val / 64 * 64 + 64; omega
  | ⟨1, _⟩ =>
    show win0_14.index t (1 : Fin 2) * 512 ≤ (i 1).val ∧ (i 1).val < win0_14.index t (1 : Fin 2) * 512 + 512
    rw [e1]; omega

/-- Every index of the second result lies in the block of the point that holds its row. -/
theorem cover15 (i : S4096x256.Idx) : ∃ t : Fin cfg0.N, (cfg0.win 15).flush t = true ∧ i ∈ ((cfg0.win 15).blk t).view.set := by
  have h0 : (i 0).val < 4096 := (i 0).isLt
  have h1 : (i 1).val < 256 := (i 1).isLt
  let t : Fin cfg0.N := ⟨(i 0).val / 64, lt_of_lt_of_eq (by omega) N_0.symm⟩
  obtain ⟨-, -, -, -, -, -, -, -, e0, e1⟩ := idx_facts t
  refine ⟨t, flush0_15 t, ?_⟩
  show i ∈ ((View.whole main_v0_1).slice (win0_15.rect t)).set
  rw [View.set_slice_whole, Rect.mem_set_unit]
  intro a
  match a with
  | ⟨0, _⟩ =>
    show win0_15.index t (0 : Fin 2) * 64 ≤ (i 0).val ∧ (i 0).val < win0_15.index t (0 : Fin 2) * 64 + 64
    rw [e0]; show (i 0).val / 64 * 64 ≤ (i 0).val ∧ (i 0).val < (i 0).val / 64 * 64 + 64; omega
  | ⟨1, _⟩ =>
    show win0_15.index t (1 : Fin 2) * 256 ≤ (i 1).val ∧ (i 1).val < win0_15.index t (1 : Fin 2) * 256 + 256
    rw [e1]; omega

/-- THE ARRAYS after the run. -/
theorem final14 (c : Dev nD) : (dats m 0 c).arrAt 14 cfg0.N = out14 m c :=
  (dats m 0 c).arrAt_eq_of_cover 14 (out14 m c) (fun t _ => flushed14_eq m c t) cover14

theorem final15 (c : Dev nD) : (dats m 0 c).arrAt 15 cfg0.N = out15 m c :=
  (dats m 0 c).arrAt_eq_of_cover 15 (out15 m c) (fun t _ => flushed15_eq m c t) cover15

/-- The kernel's run: both results at their functions of the arguments, the arguments unchanged. -/
theorem run : θ_run defs (onTc (τ := τ) (main (F := Ideal))) ⟨m, fun _ => 0, ρ⟩ fun r => ∀ c : Dev nD,
      r.2.mem ((c : Thread nD τ).loc main_v0_0) = out14 m c
      ∧ r.2.mem ((c : Thread nD τ).loc main_v0_1) = out15 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final14 m c), (h c).2.1.trans (final15 m c), (h c).2.2⟩)
    (Cert.KernelIdeal.Value.run_blocks m ρ)

end Cert.KernelArray

end
-- ==== Proof.RefValue.lean ====
/-
  The reference's stages at an index, as the tree cell of one batch row.

  The reference computes on whole arrays of 4096 batch rows. Read at batch row b, each of its stages is the cell's
  quantity on that row: the summed hidden state is the sum over the 32 children; a gate's two contractions are sums over
  the 512 input features and the 256 hidden features against row c of the weights (the reference transposes W and U
  for the node gates and contracts their second axis directly for the forget gate — the same sums); the host spells
  the logistic function as 1 / (1 + exp(−x)), which is that function on every extended real.
-/
import proofs.«129001_j4526895530471_1_alg».proof.Proof.Gen.ReferenceIdeal.Read
import proofs.«129001_j4526895530471_1_alg».proof.Proof.Cell
import proofs.«129001_j4526895530471_1_alg».proof.Proof.Halves

noncomputable section

namespace Cert.RefValue

open Idealize.ShloMosaic Idealize.ShloMosaic.ValueIdx Cert.ReferenceIdeal Cert.ReferenceIdeal.Read Cert.Cell

/-- Batch row b of a [4096, 32, 512] array. -/
abbrev arow (x : (⟨S4096x32x512, .f32⟩ : BufTy).Contents (Elt Ideal)) (b : Fin 4096) : Cell.Row := fun n s => x (ix3 b n s)

/-- The reference's summed hidden state at (b, k). -/
theorem hsum_apply (x1 : (⟨S4096x32x512, .f32⟩ : BufTy).Contents (Elt Ideal)) (b : Fin 4096) (k : Fin 256) :
    val_main_v4 (F := Ideal) x1 (ix2 b k) = childSum (arow x1 b) k := by
  rw [val_main_v4_apply, val_main_cst_apply, Ideal.ofBits_def, Ideal.ofBits_zero_f32, zero_add]
  unfold childSum
  exact Finset.sum_congr rfl fun n _ =>
    (val_main_v2_apply x1 _).trans (congrArg x1 (funext fun a => Fin.ext (by match a with | ⟨0, _⟩ => rfl | ⟨1, _⟩ => rfl | ⟨2, _⟩ => rfl)))

/-- A node gate's pre-activation at (b, c). -/
theorem nodeLin_apply (x0 x1 : (⟨S4096x32x512, .f32⟩ : BufTy).Contents (Elt Ideal)) (W : (⟨S256x512, .f32⟩ : BufTy).Contents (Elt Ideal)) (U : (⟨S256x256, .f32⟩ : BufTy).Contents (Elt Ideal)) (bias : (⟨S256, .f32⟩ : BufTy).Contents (Elt Ideal)) (b : Fin 4096) (c : Fin 256) :
    val_main_v12 (F := Ideal) x0 x1 W U bias (ix2 b c) = lin (arow x0 b 0) (childSum (arow x1 b)) W U bias c := by
  rw [val_main_v12_apply, val_main_v9_apply, val_main_v6_apply, val_main_v8_apply, val_main_v11_apply, val_main_v10_apply]
  unfold lin
  refine congrArg₂ (· + ·) (congrArg₂ (· + ·)
    (Finset.sum_congr rfl fun s _ => congrArg₂ (· * ·) ?_ ?_) (Finset.sum_congr rfl fun k _ => congrArg₂ (· * ·) ?_ ?_)) ?_
  · rw [val_main_v1_apply, val_main_v0_apply]
    exact congrArg x0 (funext fun a => Fin.ext (by
      have := s.isLt
      match a with
      | ⟨0, _⟩ => show (b.val * 512 + s.val) / 512 = b.val; omega
      | ⟨1, _⟩ => rfl
      | ⟨2, _⟩ => show (b.val * 512 + s.val) % 512 = s.val; omega))
  · rw [val_main_v5_apply]
    exact congrArg W (funext fun a => Fin.ext (by match a with | ⟨0, _⟩ => rfl | ⟨1, _⟩ => rfl))
  · exact (congrArg (val_main_v4 (F := Ideal) x1) (funext fun a => Fin.ext (by match a with | ⟨0, _⟩ => rfl | ⟨1, _⟩ => rfl))).trans (hsum_apply x1 b k)
  · rw [val_main_v7_apply]
    exact congrArg U (funext fun a => Fin.ext (by match a with | ⟨0, _⟩ => rfl | ⟨1, _⟩ => rfl))
  · exact congrArg bias (funext fun a => Fin.ext (by match a with | ⟨0, _⟩ => rfl))

/-- The forget gate's pre-activation at (b, n, c): child n's own node features and hidden state. -/
theorem childLin_apply (x0 x1 : (⟨S4096x32x512, .f32⟩ : BufTy).Contents (Elt Ideal)) (W : (⟨S256x512, .f32⟩ : BufTy).Contents (Elt Ideal)) (U : (⟨S256x256, .f32⟩ : BufTy).Contents (Elt Ideal)) (bias : (⟨S256, .f32⟩ : BufTy).Contents (Elt Ideal)) (b : Fin 4096) (n : Fin 32) (c : Fin 256) :
    val_main_v24 (F := Ideal) x0 x1 W U bias (ix3 b n c) = lin (arow x0 b n) (fun k => arow x1 b n (lo k)) W U bias c := by
  rw [val_main_v24_apply, val_main_v21_apply, val_main_v19_apply, val_main_v20_apply, val_main_v23_apply, val_main_v22_apply]
  unfold lin
  refine congrArg₂ (· + ·) (congrArg₂ (· + ·)
    (Finset.sum_congr rfl fun s _ => congrArg₂ (· * ·) ?_ ?_) (Finset.sum_congr rfl fun k _ => congrArg₂ (· * ·) ?_ ?_)) ?_
  · exact congrArg x0 (funext fun a => Fin.ext (by match a with | ⟨0, _⟩ => rfl | ⟨1, _⟩ => rfl | ⟨2, _⟩ => rfl))
  · exact congrArg W (funext fun a => Fin.ext (by match a with | ⟨0, _⟩ => rfl | ⟨1, _⟩ => rfl))
  · rw [val_main_v2_apply]
    exact congrArg x1 (funext fun a => Fin.ext (by match a with | ⟨0, _⟩ => rfl | ⟨1, _⟩ => rfl | ⟨2, _⟩ => rfl))
  · exact congrArg U (funext fun a => Fin.ext (by match a with | ⟨0, _⟩ => rfl | ⟨1, _⟩ => rfl))
  · exact congrArg bias (funext fun a => Fin.ext (by match a with | ⟨0, _⟩ => rfl))

/-- The input gate at (b, c). -/
theorem sigNode_apply (x0 x1 : (⟨S4096x32x512, .f32⟩ : BufTy).Contents (Elt Ideal)) (W : (⟨S256x512, .f32⟩ : BufTy).Contents (Elt Ideal)) (U : (⟨S256x256, .f32⟩ : BufTy).Contents (Elt Ideal)) (bias : (⟨S256, .f32⟩ : BufTy).Contents (Elt Ideal)) (b : Fin 4096) (c : Fin 256) :
    val_main_v18 (F := Ideal) x0 x1 W U bias (ix2 b c) = Ideal.logistic (lin (arow x0 b 0) (childSum (arow x1 b)) W U bias c) := by
  rw [val_main_v18_apply, val_main_v17_apply, val_main_cst_1_apply, val_main_v16_apply, val_main_v15_apply, val_main_cst_0_apply,
    val_main_v14_apply, val_main_v13_apply, nodeLin_apply]
  exact logistic_spelled _

/-- The forget gate at (b, n, c). -/
theorem sigChild_apply (x0 x1 : (⟨S4096x32x512, .f32⟩ : BufTy).Contents (Elt Ideal)) (W : (⟨S256x512, .f32⟩ : BufTy).Contents (Elt Ideal)) (U : (⟨S256x256, .f32⟩ : BufTy).Contents (Elt Ideal)) (bias : (⟨S256, .f32⟩ : BufTy).Contents (Elt Ideal)) (b : Fin 4096) (n : Fin 32) (c : Fin 256) :
    val_main_v30 (F := Ideal) x0 x1 W U bias (ix3 b n c) = Ideal.logistic (lin (arow x0 b n) (fun k => arow x1 b n (lo k)) W U bias c) := by
  rw [val_main_v30_apply, val_main_v29_apply, val_main_cst_3_apply, val_main_v28_apply, val_main_v27_apply, val_main_cst_2_apply,
    val_main_v26_apply, val_main_v25_apply, childLin_apply]
  exact logistic_spelled _

/-- The three node gates are one function of their own weights: the output gate's and the candidate's stages are the
    input gate's stages at other arguments. -/
theorem outGate_eq (x0 x1 : (⟨S4096x32x512, .f32⟩ : BufTy).Contents (Elt Ideal)) (W : (⟨S256x512, .f32⟩ : BufTy).Contents (Elt Ideal)) (U : (⟨S256x256, .f32⟩ : BufTy).Contents (Elt Ideal)) (bias : (⟨S256, .f32⟩ : BufTy).Contents (Elt Ideal)) : val_main_v44 (F := Ideal) x0 x1 W U bias = val_main_v18 (F := Ideal) x0 x1 W U bias := rfl
theorem candLin_eq (x0 x1 : (⟨S4096x32x512, .f32⟩ : BufTy).Contents (Elt Ideal)) (W : (⟨S256x512, .f32⟩ : BufTy).Contents (Elt Ideal)) (U : (⟨S256x256, .f32⟩ : BufTy).Contents (Elt Ideal)) (bias : (⟨S256, .f32⟩ : BufTy).Contents (Elt Ideal)) : val_main_v52 (F := Ideal) x0 x1 W U bias = val_main_v12 (F := Ideal) x0 x1 W U bias := rfl

/-- The new memory at (b, c). -/
theorem cell_apply (x0 x1 : (⟨S4096x32x512, .f32⟩ : BufTy).Contents (Elt Ideal)) (Wi : (⟨S256x512, .f32⟩ : BufTy).Contents (Elt Ideal)) (Ui : (⟨S256x256, .f32⟩ : BufTy).Contents (Elt Ideal)) (bi : (⟨S256, .f32⟩ : BufTy).Contents (Elt Ideal)) (Wf : (⟨S256x512, .f32⟩ : BufTy).Contents (Elt Ideal)) (Uf : (⟨S256x256, .f32⟩ : BufTy).Contents (Elt Ideal)) (bf : (⟨S256, .f32⟩ : BufTy).Contents (Elt Ideal)) (Wu : (⟨S256x512, .f32⟩ : BufTy).Contents (Elt Ideal)) (Uu : (⟨S256x256, .f32⟩ : BufTy).Contents (Elt Ideal)) (bu : (⟨S256, .f32⟩ : BufTy).Contents (Elt Ideal))
    (b : Fin 4096) (c : Fin 256) :
    val_main_v57 (F := Ideal) x0 x1 Wi Ui bi Wf Uf bf Wu Uu bu (ix2 b c) = cellState (arow x0 b) (arow x1 b) Wi Ui bi Wf Uf bf Wu Uu bu c := by
  rw [val_main_v57_apply, val_main_v54_apply, val_main_v53_apply, val_main_v56_apply, val_main_cst_6_apply, sigNode_apply,
    candLin_eq, nodeLin_apply, Ideal.ofBits_def, Ideal.ofBits_zero_f32, zero_add]
  unfold cellState
  refine congrArg₂ (· + ·) rfl (Finset.sum_congr rfl fun n _ => ?_)
  rw [val_main_v55_apply]
  refine congrArg₂ (· * ·) ?_ ?_
  · exact (congrArg (val_main_v30 (F := Ideal) x0 x1 Wf Uf bf) (funext fun a => Fin.ext (by match a with | ⟨0, _⟩ => rfl | ⟨1, _⟩ => rfl | ⟨2, _⟩ => rfl))).trans (sigChild_apply x0 x1 Wf Uf bf b n c)
  · rw [val_main_v3_apply]
    exact congrArg x1 (funext fun a => Fin.ext (by match a with | ⟨0, _⟩ => rfl | ⟨1, _⟩ => rfl | ⟨2, _⟩ => rfl))

/-- The new hidden state at (b, c). -/
theorem hidden_apply (x0 x1 : (⟨S4096x32x512, .f32⟩ : BufTy).Contents (Elt Ideal)) (Wi : (⟨S256x512, .f32⟩ : BufTy).Contents (Elt Ideal)) (Ui : (⟨S256x256, .f32⟩ : BufTy).Contents (Elt Ideal)) (bi : (⟨S256, .f32⟩ : BufTy).Contents (Elt Ideal)) (Wf : (⟨S256x512, .f32⟩ : BufTy).Contents (Elt Ideal)) (Uf : (⟨S256x256, .f32⟩ : BufTy).Contents (Elt Ideal)) (bf : (⟨S256, .f32⟩ : BufTy).Contents (Elt Ideal)) (Wo : (⟨S256x512, .f32⟩ : BufTy).Contents (Elt Ideal)) (Uo : (⟨S256x256, .f32⟩ : BufTy).Contents (Elt Ideal)) (bo : (⟨S256, .f32⟩ : BufTy).Contents (Elt Ideal)) (Wu : (⟨S256x512, .f32⟩ : BufTy).Contents (Elt Ideal)) (Uu : (⟨S256x256, .f32⟩ : BufTy).Contents (Elt Ideal)) (bu : (⟨S256, .f32⟩ : BufTy).Contents (Elt Ideal)) (b : Fin 4096) (c : Fin 256) :
    val_main_v59 (F := Ideal) x0 x1 Wi Ui bi Wf Uf bf Wo Uo bo Wu Uu bu (ix2 b c)
      = hidden (arow x0 b) (arow x1 b) Wi Ui bi Wf Uf bf Wo Uo bo Wu Uu bu c := by
  rw [val_main_v59_apply, val_main_v58_apply, outGate_eq, sigNode_apply, cell_apply]
  rfl

/-- The reference's first result at (b, q) is the cell's output row of batch row b. -/
theorem out_apply (x0 x1 : (⟨S4096x32x512, .f32⟩ : BufTy).Contents (Elt Ideal)) (Wi : (⟨S256x512, .f32⟩ : BufTy).Contents (Elt Ideal)) (Ui : (⟨S256x256, .f32⟩ : BufTy).Contents (Elt Ideal)) (bi : (⟨S256, .f32⟩ : BufTy).Contents (Elt Ideal)) (Wf : (⟨S256x512, .f32⟩ : BufTy).Contents (Elt Ideal)) (Uf : (⟨S256x256, .f32⟩ : BufTy).Contents (Elt Ideal)) (bf : (⟨S256, .f32⟩ : BufTy).Contents (Elt Ideal)) (Wo : (⟨S256x512, .f32⟩ : BufTy).Contents (Elt Ideal)) (Uo : (⟨S256x256, .f32⟩ : BufTy).Contents (Elt Ideal)) (bo : (⟨S256, .f32⟩ : BufTy).Contents (Elt Ideal)) (Wu : (⟨S256x512, .f32⟩ : BufTy).Contents (Elt Ideal)) (Uu : (⟨S256x256, .f32⟩ : BufTy).Contents (Elt Ideal)) (bu : (⟨S256, .f32⟩ : BufTy).Contents (Elt Ideal)) (b : Fin 4096) (q : Fin 512) :
    val_main_v60 (F := Ideal) x0 x1 Wi Ui bi Wf Uf bf Wo Uo bo Wu Uu bu (ix2 b q)
      = outRow (arow x0 b) (arow x1 b) Wi Ui bi Wf Uf bf Wo Uo bo Wu Uu bu q := by
  unfold val_main_v60
  exact join_outRow _ _ _ b q _ _ Wi Ui bi Wf Uf bf Wo Uo bo Wu Uu bu
    (fun c => hidden_apply x0 x1 Wi Ui bi Wf Uf bf Wo Uo bo Wu Uu bu b c)
    (fun c => cell_apply x0 x1 Wi Ui bi Wf Uf bf Wu Uu bu b c)

end Cert.RefValue

end
-- ==== Proof.lean ====
/-
  The tree cell with children-sum aggregation: the kernel against the reference, at the extended reals.

  Both programs take a node tensor and a children tensor of shape [4096, 32, 512] and four gates' weights (W on the 512
  input features, U on the 256 hidden features, a bias), and return the new hidden state and memory side by side,
  [4096, 512], and the children's summed hidden state, [4096, 256]. The cell acts on each batch row by itself
  (Proof/Cell.lean): with h~ the sum over the 32 children of their hidden halves,
      i = σ(lin_i(z_0, h~)),  o = σ(lin_o(z_0, h~)),  u = tanh(lin_u(z_0, h~)),  f_n = σ(lin_f(z_n, h_n)),
      c = i·u + Σ_n f_n·c_n,   h = o·tanh(c).
  The kernel walks the batch in 64 blocks of 64 rows; on a block it forms the node gates by 64-row products and the
  forget gate by products on the block re-laid as 2048 rows, in a narrower float format. The reference works on whole
  arrays, contracts the forget gate's axes directly, and spells σ as 1 / (1 + exp(−x)). At the extended reals a change
  of format is the identity, a product into zero and a host contraction are the same finite sums, and the spelled σ is
  the logistic function, its limits at the infinities included; no step moves a factor across a sum, so nothing here
  needs the inputs to be finite. Each result array of either program is therefore the same function of the argument
  arrays, index by index (Proof/Arrays.lean): the kernel's by its body at an index of a block (Proof/KernelBlock.lean,
  Proof/KernelRow.lean) and the blocks tiling the arrays (Proof/KernelArray.lean), the reference's stage by stage
  (Proof/RefValue.lean).
-/
import proofs.«129001_j4526895530471_1_alg».proof.Defs
import proofs.«129001_j4526895530471_1_alg».proof.Proof.Gen.Kernel
import proofs.«129001_j4526895530471_1_alg».proof.Proof.Gen.Kernel.Skeleton
import proofs.«129001_j4526895530471_1_alg».proof.Proof.Gen.Kernel.Launch
import proofs.«129001_j4526895530471_1_alg».proof.Proof.Gen.Kernel.Points
import proofs.«129001_j4526895530471_1_alg».proof.Proof.Gen.Kernel.Frame
import proofs.«129001_j4526895530471_1_alg».proof.Proof.Gen.KernelIdeal
import proofs.«129001_j4526895530471_1_alg».proof.Proof.Gen.KernelIdeal.Skeleton
import proofs.«129001_j4526895530471_1_alg».proof.Proof.Gen.KernelIdeal.Launch
import proofs.«129001_j4526895530471_1_alg».proof.Proof.Gen.KernelIdeal.Points
import proofs.«129001_j4526895530471_1_alg».proof.Proof.Gen.KernelIdeal.Frame
import proofs.«129001_j4526895530471_1_alg».proof.Proof.Gen.ReferenceIdeal
import proofs.«129001_j4526895530471_1_alg».proof.Proof.Gen.Pre_finite_inputs
import proofs.«129001_j4526895530471_1_alg».proof.Proof.Gen.KernelIdeal.Value
import proofs.«129001_j4526895530471_1_alg».proof.Proof.Gen.ReferenceIdeal.Run
import proofs.«129001_j4526895530471_1_alg».proof.Proof.Gen.ReferenceIdeal.Read
import proofs.«129001_j4526895530471_1_alg».proof.Proof.KernelArray
import proofs.«129001_j4526895530471_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the arguments, the kernel ends with its two results at the cell's whole-array
    functions of the arguments (blocks tiling the arrays), and the reference's two results, read stage by stage at an
    index, are the same functions. -/
theorem algebraic : Cert.algebraic_KernelIdeal_ReferenceIdeal := by
  intro m ρ m' ρ' _ hagree
  refine ⟨fun c => Cert.KernelArray.out14 m c, fun c => Cert.KernelArray.out15 m c, Cert.KernelArray.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13⟩ := hagree c
    rw [Cert.ReferenceIdeal.Read.val_main_v60_eq, a0, a1, a2, a3, a4, a5, a6, a7, a8, a9, a10, a11, a12, a13]
    funext i
    obtain ⟨b, q, rfl⟩ : ∃ (b : Fin 4096) (q : Fin 512), i = ix2 b q := ⟨i 0, i 1, eq_ix2 i⟩
    exact Cert.RefValue.out_apply _ _ _ _ _ _ _ _ _ _ _ _ _ _ b q
  · obtain ⟨-, a1, -⟩ := hagree c
    rw [Cert.ReferenceIdeal.Read.val_main_v4_eq, a1]
    funext i
    obtain ⟨b, k, rfl⟩ : ∃ (b : Fin 4096) (k : Fin 256), i = ix2 b k := ⟨i 0, i 1, eq_ix2 i⟩
    exact Cert.RefValue.hsum_apply _ b k

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
